-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x3200000 : Shape := ⟨2, ![2, 3200000]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S16x1 .f32) (main_arg9 : FVec F S16x1 .f32) (main_arg10 : FVec F S1 .f32) (main_v33 : IVec S_ 1) : IVec S_ 1 :=
  let main_v34 : FVec F S16x1 .f32 := Host.absf main_arg8
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S16x1 .f32 := Host.absf main_arg9
  let main_cst_14 : FVec F S_ .f32 := constant S_ .f32 0x7F800000#32
  let main_v40 : FVec F S16x1 .f32 := broadcastInDim S16x1 ![] bcast_S_S16x1 main_cst_14
  let main_v41 : IVec S16x1 1 := cmpf .olt main_v39 main_v40
  let main_c_15 : IVec S_ 1 := constantI S_ 1 1#1
  let main_v42 : IVec S_ 1 := (fun x v => Host.reduce IntOp.andi x v reducesTo_S16x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S16x16 .f32) (main_arg6 : FVec F S16x16 .f32) (main_arg7 : FVec F S16 .f32) (main_arg8 : FVec F S16x1 .f32) (main_arg9 : FVec F S16x1 .f32) (main_arg10 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16x16 .f32 := Host.absf main_arg6
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_v33

def fn {F : FTy → Type} [FloatOps F] (main_arg0 : FVec F S100000x1 .f32) (main_arg1 : IVec S2x3200000 32) (main_arg2 : FVec F S1x16 .f32) (main_arg3 : FVec F S1x16 .f32) (main_arg4 : FVec F S16 .f32) (main_arg5 : FVec F S16x16 .f32) (main_arg6 : FVec F S16x16 .f32) (main_arg7 : FVec F S16 .f32) (main_arg8 : FVec F S16x1 .f32) (main_arg9 : FVec F S16x1 .f32) (main_arg10 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x16 .f32 := Host.absf main_arg2
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_arg10 main_v13 main_v16
-- ==== Kernel.lean ====
abbrev S100000x1 : Shape := ⟨2, ![100000, 1]⟩
abbrev S2x3200000 : Shape := ⟨2, ![2, 3200000]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x16 : Shape := ⟨2, ![100000, 16]⟩
abbrev S5000x1 : Shape := ⟨2, ![5000, 1]⟩
abbrev S5000x16 : Shape := ⟨2, ![5000, 16]⟩
abbrev S3200000x16 : Shape := ⟨2, ![3200000, 16]⟩
abbrev S1x1 : Shape := ⟨2, ![1, 1]⟩

abbrev nBuf : Space → Nat
  | .hbm => 60
  | .vmem => 27
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S1x16, .f32⟩
  | .hbm, ⟨3, _⟩ => ⟨S1x16, .f32⟩
  | .hbm, ⟨4, _⟩ => ⟨S16, .f32⟩
  | .hbm, ⟨5, _⟩ => ⟨S16x16, .f32⟩
  | .hbm, ⟨6, _⟩ => ⟨S16x16, .f32⟩
  | .hbm, ⟨7, _⟩ => ⟨S16, .f32⟩
  | .hbm, ⟨8, _⟩ => ⟨S16x1, .f32⟩
  | .hbm, ⟨9, _⟩ => ⟨S16x1, .f32⟩
  | .hbm, ⟨10, _⟩ => ⟨S1, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x1, .f32⟩
  | .hbm, ⟨24, _⟩ => ⟨S_, .f32⟩
  | .hbm, ⟨25, _⟩ => ⟨S100000x1, .f32⟩
  | .hbm, ⟨26, _⟩ => ⟨S3200000x1, .i32⟩
  | .hbm, ⟨27, _⟩ => ⟨S100000x1, .f32⟩
  | .hbm, ⟨28, _⟩ => ⟨S1x16, .f32⟩
  | .hbm, ⟨29, _⟩ => ⟨S100000x16, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000x16, .f32⟩
  | .hbm, ⟨39, _⟩ => ⟨S_, .f32⟩
  | .hbm, ⟨40, _⟩ => ⟨S100000x16, .f32⟩
  | .hbm, ⟨41, _⟩ => ⟨S3200000x1, .i32⟩
  | .hbm, ⟨42, _⟩ => ⟨S100000x16, .f32⟩
  | .hbm, ⟨43, _⟩ => ⟨S1x16, .f32⟩
  | .hbm, ⟨44, _⟩ => ⟨S100000x16, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x16, .f32⟩
  | .hbm, ⟨54, _⟩ => ⟨S_, .f32⟩
  | .hbm, ⟨55, _⟩ => ⟨S100000x16, .f32⟩
  | .hbm, ⟨56, _⟩ => ⟨S3200000x1, .i32⟩
  | .hbm, ⟨57, _⟩ => ⟨S100000x16, .f32⟩
  | .hbm, ⟨58, _⟩ => ⟨S1x1, .f32⟩
  | .hbm, ⟨59, _⟩ => ⟨S100000x1, .f32⟩
  | .local _ .vmem, ⟨0, _⟩ => ⟨S5000x1, .f32⟩
  | .local _ .vmem, ⟨1, _⟩ => ⟨S5000x1, .f32⟩
  | .local _ .vmem, ⟨2, _⟩ => ⟨S5000x1, .f32⟩
  | .local _ .vmem, ⟨3, _⟩ => ⟨S5000x1, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S16x16, .f32⟩
  | .local _ .vmem, ⟨14, _⟩ => ⟨S16x16, .f32⟩
  | .local _ .vmem, ⟨15, _⟩ => ⟨S1x16, .f32⟩
  | .local _ .vmem, ⟨16, _⟩ => ⟨S5000x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S16x1, .f32⟩
  | .local _ .vmem, ⟨23, _⟩ => ⟨S16x1, .f32⟩
  | .local _ .vmem, ⟨24, _⟩ => ⟨S1x1, .f32⟩
  | .local _ .vmem, ⟨25, _⟩ => ⟨S5000x1, .f32⟩
  | .local _ .vmem, ⟨26, _⟩ => ⟨S5000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x1 : S_.BroadcastsInDim S100000x1 (![] : Fin 0 → Fin S100000x1.rank)
  shapeCasts_S16_S1x16 : S16.ShapeCasts S1x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S5000x16_S5000x16 : S5000x16.ShapeCasts S5000x16
  inb_S16x16_S16x16_0_0 : ∀ a, (![0, 0] : Fin 2 → Nat) a + S16x16.size a ≤ S16x16.size a
  h_S16x16 : 0 < S16x16.numel
  shapeCasts_S1_S1x1 : S1.ShapeCasts S1x1
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  dot_S5000x1_S1x16_S5000x16_1_0_0_1_n_n_wf : DotDims.WF S5000x1 S1x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x16_S5000x16_1_0_0_1_n_n_wf : DotDims.WF S5000x16 S16x16 S5000x16 [1] [0] [0] [1] [] []
  dot_S5000x16_S16x1_S5000x1_1_0_0_1_n_n_wf : DotDims.WF S5000x16 S16x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x16.size a ≤ S100000x16.size a
  hwx0_5 : ∀ i : grid0.Coords, EltTy.bits .f32 = 32 ∨ (Rect.block (s := S100000x16) S5000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S100000x16.size a
  hwx1_5 : ∀ i : grid1.Coords, EltTy.bits .f32 = 32 ∨ (Rect.block (s := S100000x16) S5000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S100000x16.size a
  hwx2_1 : ∀ i : grid2.Coords, EltTy.bits .f32 = 32 ∨ (Rect.block (s := S100000x16) S5000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x1.size a ≤ S16x1.size a
  hwx2_2 : ∀ i : grid2.Coords, EltTy.bits .f32 = 32 ∨ (Rect.block (s := S16x1) S16x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x1.size a ≤ S16x1.size a
  hwx2_3 : ∀ i : grid2.Coords, EltTy.bits .f32 = 32 ∨ (Rect.block (s := S16x1) S16x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S100000x1.size a
  hwx2_5 : ∀ i : grid2.Coords, EltTy.bits .f32 = 32 ∨ (Rect.block (s := S100000x1) S5000x1.size (cc2_transform_5 i) (hinb2_5 i)).WholeWords (EltTy.packing .f32)

variable [Facts₀]

def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S5000x1_S1x16_S5000x16_1_0_0_1_n_n : DotDims S5000x1 S1x16 S5000x16 where
  lhsContracting := [1]
  rhsContracting := [0]
  lhsNonContracting := [0]
  rhsNonContracting := [1]
  lhsBatch := []
  rhsBatch := []
  wf := dot_S5000x1_S1x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf

abbrev win0_0 : Pipeline.Window sig grid0 :=
  Pipeline.Window.ofSpec (Memref.whole main_v13) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S16x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S16x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x1 : Shape := ⟨2, ![100000, 1]⟩
abbrev S2x3200000 : Shape := ⟨2, ![2, 3200000]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x16 : Shape := ⟨2, ![100000, 16]⟩
abbrev S3200000x16 : Shape := ⟨2, ![3200000, 16]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S1x16, .f32⟩
  | .hbm, ⟨3, _⟩ => ⟨S1x16, .f32⟩
  | .hbm, ⟨4, _⟩ => ⟨S16, .f32⟩
  | .hbm, ⟨5, _⟩ => ⟨S16x16, .f32⟩
  | .hbm, ⟨6, _⟩ => ⟨S16x16, .f32⟩
  | .hbm, ⟨7, _⟩ => ⟨S16, .f32⟩
  | .hbm, ⟨8, _⟩ => ⟨S16x1, .f32⟩
  | .hbm, ⟨9, _⟩ => ⟨S16x1, .f32⟩
  | .hbm, ⟨10, _⟩ => ⟨S1, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x1, .f32⟩
  | .hbm, ⟨24, _⟩ => ⟨S_, .f32⟩
  | .hbm, ⟨25, _⟩ => ⟨S100000x1, .f32⟩
  | .hbm, ⟨26, _⟩ => ⟨S3200000x1, .i32⟩
  | .hbm, ⟨27, _⟩ => ⟨S100000x1, .f32⟩
  | .hbm, ⟨28, _⟩ => ⟨S100000x16, .f32⟩
  | .hbm, ⟨29, _⟩ => ⟨S1x16, .f32⟩
  | .hbm, ⟨30, _⟩ => ⟨S100000x16, .f32⟩
  | .hbm, ⟨31, _⟩ => ⟨S100000x16, .f32⟩
  | .hbm, ⟨32, _⟩ => ⟨S100000x16, .f32⟩
  | .hbm, ⟨33, _⟩ => ⟨S100000x16, .f32⟩
  | .hbm, ⟨34, _⟩ => ⟨S_, .f32⟩
  | .hbm, ⟨35, _⟩ => ⟨S100000x16, .f32⟩
  | .hbm, ⟨36, _⟩ => ⟨S100000x16, .f32⟩
  | .hbm, ⟨37, _⟩ => ⟨S_, .i32⟩
  | .hbm, ⟨38, _⟩ => ⟨S3200000, .i32⟩
  | .hbm, ⟨39, _⟩ => ⟨S3200000, .i1⟩
  | .hbm, ⟨40, _⟩ => ⟨S_, .i32⟩
  | .hbm, ⟨41, _⟩ => ⟨S3200000, .i32⟩
  | .hbm, ⟨42, _⟩ => ⟨S3200000, .i32⟩
  | .hbm, ⟨43, _⟩ => ⟨S3200000, .i32⟩
  | .hbm, ⟨44, _⟩ => ⟨S3200000x1, .i32⟩
  | .hbm, ⟨45, _⟩ => ⟨S3200000x16, .f32⟩
  | .hbm, ⟨46, _⟩ => ⟨S_, .f32⟩
  | .hbm, ⟨47, _⟩ => ⟨S100000x16, .f32⟩
  | .hbm, ⟨48, _⟩ => ⟨S3200000x1, .i32⟩
  | .hbm, ⟨49, _⟩ => ⟨S100000x16, .f32⟩
  | .hbm, ⟨50, _⟩ => ⟨S100000x16, .f32⟩
  | .hbm, ⟨51, _⟩ => ⟨S1x16, .f32⟩
  | .hbm, ⟨52, _⟩ => ⟨S100000x16, .f32⟩
  | .hbm, ⟨53, _⟩ => ⟨S100000x16, .f32⟩
  | .hbm, ⟨54, _⟩ => ⟨S100000x16, .f32⟩
  | .hbm, ⟨55, _⟩ => ⟨S100000x16, .f32⟩
  | .hbm, ⟨56, _⟩ => ⟨S_, .i32⟩
  | .hbm, ⟨57, _⟩ => ⟨S3200000, .i32⟩
  | .hbm, ⟨58, _⟩ => ⟨S3200000, .i1⟩
  | .hbm, ⟨59, _⟩ => ⟨S_, .i32⟩
  | .hbm, ⟨60, _⟩ => ⟨S3200000, .i32⟩
  | .hbm, ⟨61, _⟩ => ⟨S3200000, .i32⟩
  | .hbm, ⟨62, _⟩ => ⟨S3200000, .i32⟩
  | .hbm, ⟨63, _⟩ => ⟨S3200000x1, .i32⟩
  | .hbm, ⟨64, _⟩ => ⟨S3200000x16, .f32⟩
  | .hbm, ⟨65, _⟩ => ⟨S_, .f32⟩
  | .hbm, ⟨66, _⟩ => ⟨S100000x16, .f32⟩
  | .hbm, ⟨67, _⟩ => ⟨S3200000x1, .i32⟩
  | .hbm, ⟨68, _⟩ => ⟨S100000x16, .f32⟩
  | .hbm, ⟨69, _⟩ => ⟨S100000x1, .f32⟩
  | .hbm, ⟨70, _⟩ => ⟨S1x1, .f32⟩
  | .hbm, ⟨71, _⟩ => ⟨S100000x1, .f32⟩
  | .hbm, ⟨72, _⟩ => ⟨S100000x1, .f32⟩
  | .hbm, ⟨73, _⟩ => ⟨S100000x1, .f32⟩
  | .hbm, ⟨74, _⟩ => ⟨S100000x1, .f32⟩
  | .hbm, ⟨75, _⟩ => ⟨S_, .f32⟩
  | .hbm, ⟨76, _⟩ => ⟨S100000x1, .f32⟩
  | .hbm, ⟨77, _⟩ => ⟨S100000x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_cst : Ref sig .tc := ⟨.hbm, 34, rfl⟩
abbrev main_call0_v0 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_4 : Ref sig .tc := ⟨.hbm, 56, rfl⟩
abbrev main_v37 : Ref sig .tc := ⟨.hbm, 57, rfl⟩
abbrev main_v38 : Ref sig .tc := ⟨.hbm, 58, rfl⟩
abbrev main_c_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call1_cst : Ref sig .tc := ⟨.hbm, 75, rfl⟩
abbrev main_call1_v0 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x1 : S_.BroadcastsInDim S100000x1 (![] : Fin 0 → Fin S100000x1.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  dot_S100000x1_S1x16_S100000x16_1_0_0_1_n_n_wf : DotDims.WF S100000x1 S1x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  dot_S100000x16_S16x1_S100000x1_1_0_0_1_n_n_wf : DotDims.WF S100000x16 S16x1 S100000x1 [1] [0] [0] [1] [] []

variable [Facts₀]

def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.Spec.lean ====
/-
  A three-layer graph convolution on 100000 nodes and 3200000 edges, as whole-array functions.

  One layer sends node features z (one row per node) to
      lin (agg z) z  =  (agg z · W_rel + b) + z · W_root,
  where agg z sums, into each node's row, the rows of z at the sources of the edges that end at that node:
  the edge list's first row gives the sources (a negative entry counts from the end, so 100000 is added to it),
  its second row the destinations.  The network is
      relu (lin₃ (agg z₂) z₂)   with   z₂ = lin₂ (agg z₁) z₁,   z₁ = relu (lin₁ (agg x) x),
  the widths being 1 → 16 → 16 → 1.  Every function below is spelt with the host operations of the reference
  program, so that the reference's composed result is this network by unfolding alone.
-/
import proofs.«125403_j2929167695879_1_alg».proof.Proof.Gen.ReferenceIdeal

noncomputable section

namespace Cert.GraphNet

open Cert.ReferenceIdeal Cert.ReferenceIdeal.Gen Idealize.ShloMosaic

variable {F : FTy → Type} [FloatOps F]

/-- The edge sources, one per edge as a column: row 0 of the edge list, a negative entry moved up by 100000. -/
def src (ei : (⟨S2x3200000, .i32⟩ : BufTy).Contents (Elt F)) : (⟨S3200000x1, .i32⟩ : BufTy).Contents (Elt F) :=
  broadcastInDim S3200000x1 ![0] bcast_S3200000_S3200000x1_0
    (select
      (cmpi .slt (shapeCast _ (extractStridedSlice S1x3200000 ![0, 0] ei slices_S2x3200000_S1x3200000_0_0) shapeCasts_S1x3200000_S3200000)
        (broadcastInDim S3200000 ![] bcast_S_S3200000 (constantI S_ 32 0#32)))
      (addi (shapeCast _ (extractStridedSlice S1x3200000 ![0, 0] ei slices_S2x3200000_S1x3200000_0_0) shapeCasts_S1x3200000_S3200000)
        (broadcastInDim S3200000 ![] bcast_S_S3200000 (constantI S_ 32 100000#32)))
      (shapeCast _ (extractStridedSlice S1x3200000 ![0, 0] ei slices_S2x3200000_S1x3200000_0_0) shapeCasts_S1x3200000_S3200000))

/-- The edge destinations, one per edge as a column: row 1 of the edge list. -/
def dst (ei : (⟨S2x3200000, .i32⟩ : BufTy).Contents (Elt F)) : (⟨S3200000x1, .i32⟩ : BufTy).Contents (Elt F) :=
  broadcastInDim S3200000x1 ![0] bcast_S3200000_S3200000x1_0
    (shapeCast _ (extractStridedSlice S1x3200000 ![1, 0] ei slices_S2x3200000_S1x3200000_1_0) shapeCasts_S1x3200000_S3200000)

/-- Neighbour sums of width-1 features: each node's row is the sum of the source rows of the edges ending there. -/
def agg1 (z : (⟨S100000x1, .f32⟩ : BufTy).Contents (Elt F)) (ei : (⟨S2x3200000, .i32⟩ : BufTy).Contents (Elt F)) :
    (⟨S100000x1, .f32⟩ : BufTy).Contents (Elt F) :=
  Host.scatterAdd scatter_S100000x1_S3200000x1_S3200000x1_1_0_0_1
    (broadcastInDim S100000x1 ![] bcast_S_S100000x1 (constant S_ .f32 0x00000000#32)) (dst ei)
    (Host.gather gather_S100000x1_S3200000x1_S3200000x1_1_0_n_n_0_1_11 z (src ei))

/-- Neighbour sums of width-16 features. -/
def agg16 (z : (⟨S100000x16, .f32⟩ : BufTy).Contents (Elt F)) (ei : (⟨S2x3200000, .i32⟩ : BufTy).Contents (Elt F)) :
    (⟨S100000x16, .f32⟩ : BufTy).Contents (Elt F) :=
  Host.scatterAdd scatter_S100000x16_S3200000x1_S3200000x16_1_0_0_1
    (broadcastInDim S100000x16 ![] bcast_S_S100000x16 (constant S_ .f32 0x00000000#32)) (dst ei)
    (Host.gather gather_S100000x16_S3200000x1_S3200000x16_1_0_n_n_0_1_116 z (src ei))

/-- The first layer's affine map, widths 1 → 16, the bias given as a row: (a · W_rel + b) + z · W_root. -/
def lin1 (a z : (⟨S100000x1, .f32⟩ : BufTy).Contents (Elt F)) (wr wo : (⟨S1x16, .f32⟩ : BufTy).Contents (Elt F))
    (b : (⟨S1x16, .f32⟩ : BufTy).Contents (Elt F)) : (⟨S100000x16, .f32⟩ : BufTy).Contents (Elt F) :=
  addf (addf (Host.dotGeneral dot_S100000x1_S1x16_S100000x16_1_0_0_1_n_n none a wr)
      (broadcastInDim S100000x16 ![0, 1] bcast_S1x16_S100000x16_0_1 b))
    (Host.dotGeneral dot_S100000x1_S1x16_S100000x16_1_0_0_1_n_n none z wo)

/-- The second layer's affine map, widths 16 → 16. -/
def lin2 (a z : (⟨S100000x16, .f32⟩ : BufTy).Contents (Elt F)) (wr wo : (⟨S16x16, .f32⟩ : BufTy).Contents (Elt F))
    (b : (⟨S1x16, .f32⟩ : BufTy).Contents (Elt F)) : (⟨S100000x16, .f32⟩ : BufTy).Contents (Elt F) :=
  addf (addf (Host.dotGeneral dot_S100000x16_S16x16_S100000x16_1_0_0_1_n_n none a wr)
      (broadcastInDim S100000x16 ![0, 1] bcast_S1x16_S100000x16_0_1 b))
    (Host.dotGeneral dot_S100000x16_S16x16_S100000x16_1_0_0_1_n_n none z wo)

/-- The third layer's affine map, widths 16 → 1. -/
def lin3 (a z : (⟨S100000x16, .f32⟩ : BufTy).Contents (Elt F)) (wr wo : (⟨S16x1, .f32⟩ : BufTy).Contents (Elt F))
    (b : (⟨S1x1, .f32⟩ : BufTy).Contents (Elt F)) : (⟨S100000x1, .f32⟩ : BufTy).Contents (Elt F) :=
  addf (addf (Host.dotGeneral dot_S100000x16_S16x1_S100000x1_1_0_0_1_n_n none a wr)
      (broadcastInDim S100000x1 ![0, 1] bcast_S1x1_S100000x1_0_1 b))
    (Host.dotGeneral dot_S100000x16_S16x1_S100000x1_1_0_0_1_n_n none z wo)

/-- The positive part, entry by entry, of width-16 features. -/
def relu16 (z : (⟨S100000x16, .f32⟩ : BufTy).Contents (Elt F)) : (⟨S100000x16, .f32⟩ : BufTy).Contents (Elt F) :=
  maximumf z (broadcastInDim S100000x16 ![] bcast_S_S100000x16 (constant S_ .f32 0x00000000#32))

/-- The positive part, entry by entry, of width-1 features. -/
def relu1 (z : (⟨S100000x1, .f32⟩ : BufTy).Contents (Elt F)) : (⟨S100000x1, .f32⟩ : BufTy).Contents (Elt F) :=
  maximumf z (broadcastInDim S100000x1 ![] bcast_S_S100000x1 (constant S_ .f32 0x00000000#32))

/-- A bias vector of 16 entries as a row. -/
def row16 (b : (⟨S16, .f32⟩ : BufTy).Contents (Elt F)) : (⟨S1x16, .f32⟩ : BufTy).Contents (Elt F) :=
  broadcastInDim S1x16 ![1] bcast_S16_S1x16_1 b

/-- A bias vector of one entry as a row. -/
def row1 (b : (⟨S1, .f32⟩ : BufTy).Contents (Elt F)) : (⟨S1x1, .f32⟩ : BufTy).Contents (Elt F) :=
  broadcastInDim S1x1 ![1] bcast_S1_S1x1_1 b

/-- The hidden features after the first layer. -/
def hid1 (x : (⟨S100000x1, .f32⟩ : BufTy).Contents (Elt F)) (ei : (⟨S2x3200000, .i32⟩ : BufTy).Contents (Elt F))
    (wr1 wo1 : (⟨S1x16, .f32⟩ : BufTy).Contents (Elt F)) (b1 : (⟨S16, .f32⟩ : BufTy).Contents (Elt F)) :
    (⟨S100000x16, .f32⟩ : BufTy).Contents (Elt F) :=
  relu16 (lin1 (agg1 x ei) x wr1 wo1 (row16 b1))

/-- The hidden features after the second layer (no positive part there). -/
def hid2 (z1 : (⟨S100000x16, .f32⟩ : BufTy).Contents (Elt F)) (ei : (⟨S2x3200000, .i32⟩ : BufTy).Contents (Elt F))
    (wr2 wo2 : (⟨S16x16, .f32⟩ : BufTy).Contents (Elt F)) (b2 : (⟨S16, .f32⟩ : BufTy).Contents (Elt F)) :
    (⟨S100000x16, .f32⟩ : BufTy).Contents (Elt F) :=
  lin2 (agg16 z1 ei) z1 wr2 wo2 (row16 b2)

/-- The output of the third layer. -/
def out3 (z2 : (⟨S100000x16, .f32⟩ : BufTy).Contents (Elt F)) (ei : (⟨S2x3200000, .i32⟩ : BufTy).Contents (Elt F))
    (wr3 wo3 : (⟨S16x1, .f32⟩ : BufTy).Contents (Elt F)) (b3 : (⟨S1, .f32⟩ : BufTy).Contents (Elt F)) :
    (⟨S100000x1, .f32⟩ : BufTy).Contents (Elt F) :=
  relu1 (lin3 (agg16 z2 ei) z2 wr3 wo3 (row1 b3))

/-- The whole network, from the node features, the edge list and the three layers' weights and biases. -/
def net (x : (⟨S100000x1, .f32⟩ : BufTy).Contents (Elt F)) (ei : (⟨S2x3200000, .i32⟩ : BufTy).Contents (Elt F))
    (wr1 wo1 : (⟨S1x16, .f32⟩ : BufTy).Contents (Elt F)) (b1 : (⟨S16, .f32⟩ : BufTy).Contents (Elt F))
    (wr2 wo2 : (⟨S16x16, .f32⟩ : BufTy).Contents (Elt F)) (b2 : (⟨S16, .f32⟩ : BufTy).Contents (Elt F))
    (wr3 wo3 : (⟨S16x1, .f32⟩ : BufTy).Contents (Elt F)) (b3 : (⟨S1, .f32⟩ : BufTy).Contents (Elt F)) :
    (⟨S100000x1, .f32⟩ : BufTy).Contents (Elt F) :=
  out3 (hid2 (hid1 x ei wr1 wo1 b1) ei wr2 wo2 b2) ei wr3 wo3 b3

end Cert.GraphNet

end
-- ==== Proof.RefNet.lean ====
/-
  The reference program's result, as its run composes it from the arguments, is the three-layer network of
  Spec.lean at those arguments: the run's term is the network's host operations written out in full, each
  hidden layer repeated wherever a later operation reads it, so unfolding the network's definitions meets it.
-/
import proofs.«125403_j2929167695879_1_alg».proof.Proof.Gen.ReferenceIdeal.Run
import proofs.«125403_j2929167695879_1_alg».proof.Proof.Spec

set_option maxRecDepth 16384

noncomputable section

namespace Cert.GraphNet

open Cert.ReferenceIdeal Cert.ReferenceIdeal.Gen Idealize.ShloMosaic Idealize.ShloMosaic.TcCoe Idealize.SL.Sem

variable {F : FTy → Type} [FloatOps F]

/-- What the reference returns is the network of its eleven arguments. -/
theorem ref_result_eq_net (m : (ℓ : Loc nD τ sig) → Buf (Elt F) ℓ) (c : Dev nD) :
    Cert.ReferenceIdeal.Value.res_main_v53 m c
      = net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  unfold Cert.ReferenceIdeal.Value.res_main_v53 net out3 hid2 hid1 relu1 relu16 lin3 lin2 lin1 agg16 agg1 row16 row1 src dst
  rfl

end Cert.GraphNet

end
-- ==== Proof.Stretch.lean ====
/-
  The three host stretches of the kernel program, each read from ARBITRARY buffer contents V: which buffers a stretch
  leaves alone, and what it writes to the buffers the next region reads.  Every stretch gathers the rows of the
  current features at the edge sources and sums them into the edge destinations' rows (the neighbour sums agg of
  Spec.lean), and lays the layer's bias vector out as a row; the first stretch also cuts the edge list into its
  source row and its destination row, which the later stretches read again.
-/
import proofs.«125403_j2929167695879_1_alg».proof.Proof.Gen.KernelIdeal.Launch
import proofs.«125403_j2929167695879_1_alg».proof.Proof.Spec
import Idealize.ShloMosaic.Lib.Pipeline.Value
import Idealize.ShloMosaic.Lib.StableHlo.Run
import Idealize.ShloMosaic.PureOps.Ideal

set_option maxRecDepth 16384

noncomputable section

namespace Cert.GraphNet.Stretch

open Cert.KernelIdeal Cert.KernelIdeal.Gen Cert.GraphNet Idealize.ShloMosaic Idealize.ShloMosaic.TcCoe Idealize.SL.Sem
open Idealize.ShloMosaic.StableHlo

/-! ## The bias rows: a vector reshaped to one row is that vector laid along the row -/

/-- The entry of a 16-vector that position (0, q) of its 1 × 16 row shows. -/
abbrev col16 (i : S1x16.Idx) : S16.Idx := fun a => match a with
  | ⟨0, _⟩ => ⟨(i 1).val, (i 1).isLt⟩
/-- The one entry of a 1-vector. -/
abbrev col1 (i : S1x1.Idx) : S1.Idx := fun a => match a with
  | ⟨0, _⟩ => ⟨0, Nat.one_pos⟩

/-- Sixteen entries reshaped to a 1 × 16 row: entry (0, q) is entry q, as when the vector is laid along the row. -/
theorem reshape_row16 (b : (⟨S16, .f32⟩ : BufTy).Contents (Elt Ideal)) :
    shapeCast S1x16 b shapeCasts_S16_S1x16 = row16 b := by
  funext i
  unfold row16
  rw [shapeCast_apply b shapeCasts_S16_S1x16 i (col16 i)
      (by rewrite [Shape.rowMajor_val_two, Shape.rowMajor_val_one]; have h0 : (i 0).val < 1 := (i 0).isLt; show (i 1).val = (i 0).val * 16 + (i 1).val; omega)]
  exact (broadcastInDim_apply _ Cert.ReferenceIdeal.Gen.bcast_S16_S1x16_1 b i (col16 i) (fun a => match a with
    | ⟨0, _⟩ => by show (i 1).val = if (16 : Nat) = 1 then 0 else (i 1).val; rw [if_neg (by decide)])).symm

/-- One entry reshaped to a 1 × 1 row. -/
theorem reshape_row1 (b : (⟨S1, .f32⟩ : BufTy).Contents (Elt Ideal)) :
    shapeCast S1x1 b shapeCasts_S1_S1x1 = row1 b := by
  funext i
  unfold row1
  rw [shapeCast_apply b shapeCasts_S1_S1x1 i (col1 i)
      (by rewrite [Shape.rowMajor_val_two, Shape.rowMajor_val_one]; have h0 : (i 0).val < 1 := (i 0).isLt; have h1 : (i 1).val < 1 := (i 1).isLt; show 0 = (i 0).val * 1 + (i 1).val; omega)]
  exact (broadcastInDim_apply _ Cert.ReferenceIdeal.Gen.bcast_S1_S1x1_1 b i (col1 i) (fun a => match a with
    | ⟨0, _⟩ => by show 0 = if (1 : Nat) = 1 then 0 else (i 1).val; rw [if_pos rfl])).symm

variable (V : Valuation τ sig (Elt Ideal))

/-! ## The first stretch (18 operations) -/

theorem s0_keep_arg0 : StableHlo.after hostOps0 V (Proc.devRef .tc main_arg0) = V (Proc.devRef .tc main_arg0) := by
  after_results <;> rfl
theorem s0_keep_arg2 : StableHlo.after hostOps0 V (Proc.devRef .tc main_arg2) = V (Proc.devRef .tc main_arg2) := by
  after_results <;> rfl
theorem s0_keep_arg3 : StableHlo.after hostOps0 V (Proc.devRef .tc main_arg3) = V (Proc.devRef .tc main_arg3) := by
  after_results <;> rfl
theorem s0_keep_arg5 : StableHlo.after hostOps0 V (Proc.devRef .tc main_arg5) = V (Proc.devRef .tc main_arg5) := by
  after_results <;> rfl
theorem s0_keep_arg6 : StableHlo.after hostOps0 V (Proc.devRef .tc main_arg6) = V (Proc.devRef .tc main_arg6) := by
  after_results <;> rfl
theorem s0_keep_arg7 : StableHlo.after hostOps0 V (Proc.devRef .tc main_arg7) = V (Proc.devRef .tc main_arg7) := by
  after_results <;> rfl
theorem s0_keep_arg8 : StableHlo.after hostOps0 V (Proc.devRef .tc main_arg8) = V (Proc.devRef .tc main_arg8) := by
  after_results <;> rfl
theorem s0_keep_arg9 : StableHlo.after hostOps0 V (Proc.devRef .tc main_arg9) = V (Proc.devRef .tc main_arg9) := by
  after_results <;> rfl
theorem s0_keep_arg10 : StableHlo.after hostOps0 V (Proc.devRef .tc main_arg10) = V (Proc.devRef .tc main_arg10) := by
  after_results <;> rfl

/-- The raw edge sources: row 0 of the edge list, as a vector. -/
theorem s0_v1 : StableHlo.after hostOps0 V (Proc.devRef .tc main_v1)
    = shapeCast _ (extractStridedSlice S1x3200000 ![0, 0] (V (Proc.devRef .tc main_arg1)) slices_S2x3200000_S1x3200000_0_0) shapeCasts_S1x3200000_S3200000 := by
  after_results <;> rfl
/-- The raw edge destinations: row 1 of the edge list, as a vector. -/
theorem s0_v3 : StableHlo.after hostOps0 V (Proc.devRef .tc main_v3)
    = shapeCast _ (extractStridedSlice S1x3200000 ![1, 0] (V (Proc.devRef .tc main_arg1)) slices_S2x3200000_S1x3200000_1_0) shapeCasts_S1x3200000_S3200000 := by
  after_results <;> rfl
/-- The first stretch leaves the neighbour sums of the node features. -/
theorem s0_v13 (x0 : (⟨S100000x1, .f32⟩ : BufTy).Contents (Elt Ideal)) (x1 : (⟨S2x3200000, .i32⟩ : BufTy).Contents (Elt Ideal))
    (h0 : V (Proc.devRef .tc main_arg0) = x0) (h1 : V (Proc.devRef .tc main_arg1) = x1) :
    StableHlo.after hostOps0 V (Proc.devRef .tc main_v13) = agg1 x0 x1 := by
  after_results
  rw [h0, h1]
  unfold agg1 src dst
  rfl
/-- … and the first bias as a row. -/
theorem s0_v14 : StableHlo.after hostOps0 V (Proc.devRef .tc main_v14) = row16 (V (Proc.devRef .tc main_arg4)) := by
  after_results
  exact reshape_row16 _

/-! ## The second stretch (14 operations) -/

theorem s1_keep_v15 : StableHlo.after hostOps1 V (Proc.devRef .tc main_v15) = V (Proc.devRef .tc main_v15) := by
  after_results <;> rfl
theorem s1_keep_v1 : StableHlo.after hostOps1 V (Proc.devRef .tc main_v1) = V (Proc.devRef .tc main_v1) := by
  after_results <;> rfl
theorem s1_keep_v3 : StableHlo.after hostOps1 V (Proc.devRef .tc main_v3) = V (Proc.devRef .tc main_v3) := by
  after_results <;> rfl
theorem s1_keep_arg5 : StableHlo.after hostOps1 V (Proc.devRef .tc main_arg5) = V (Proc.devRef .tc main_arg5) := by
  after_results <;> rfl
theorem s1_keep_arg6 : StableHlo.after hostOps1 V (Proc.devRef .tc main_arg6) = V (Proc.devRef .tc main_arg6) := by
  after_results <;> rfl
theorem s1_keep_arg8 : StableHlo.after hostOps1 V (Proc.devRef .tc main_arg8) = V (Proc.devRef .tc main_arg8) := by
  after_results <;> rfl
theorem s1_keep_arg9 : StableHlo.after hostOps1 V (Proc.devRef .tc main_arg9) = V (Proc.devRef .tc main_arg9) := by
  after_results <;> rfl
theorem s1_keep_arg10 : StableHlo.after hostOps1 V (Proc.devRef .tc main_arg10) = V (Proc.devRef .tc main_arg10) := by
  after_results <;> rfl

/-- The second stretch leaves the neighbour sums of whatever features z the first region wrote, along the edges the
    first stretch cut out of the edge list x1. -/
theorem s1_v25 (z : (⟨S100000x16, .f32⟩ : BufTy).Contents (Elt Ideal)) (x1 : (⟨S2x3200000, .i32⟩ : BufTy).Contents (Elt Ideal))
    (e0 : V (Proc.devRef .tc main_v15) = z) (e1 : V (Proc.devRef .tc main_v1) = (shapeCast _ (extractStridedSlice S1x3200000 ![0, 0] x1 slices_S2x3200000_S1x3200000_0_0) shapeCasts_S1x3200000_S3200000)) (e2 : V (Proc.devRef .tc main_v3) = (shapeCast _ (extractStridedSlice S1x3200000 ![1, 0] x1 slices_S2x3200000_S1x3200000_1_0) shapeCasts_S1x3200000_S3200000)) :
    StableHlo.after hostOps1 V (Proc.devRef .tc main_v25) = agg16 z x1 := by
  after_results
  rw [e0, e1, e2]
  unfold agg16 src dst
  rfl
/-- … and the second bias as a row. -/
theorem s1_v26 : StableHlo.after hostOps1 V (Proc.devRef .tc main_v26) = row16 (V (Proc.devRef .tc main_arg7)) := by
  after_results
  exact reshape_row16 _

/-! ## The third stretch (14 operations) -/

theorem s2_keep_v27 : StableHlo.after hostOps2 V (Proc.devRef .tc main_v27) = V (Proc.devRef .tc main_v27) := by
  after_results <;> rfl
theorem s2_keep_arg8 : StableHlo.after hostOps2 V (Proc.devRef .tc main_arg8) = V (Proc.devRef .tc main_arg8) := by
  after_results <;> rfl
theorem s2_keep_arg9 : StableHlo.after hostOps2 V (Proc.devRef .tc main_arg9) = V (Proc.devRef .tc main_arg9) := by
  after_results <;> rfl

/-- The third stretch leaves the neighbour sums of whatever features z the second region wrote. -/
theorem s2_v37 (z : (⟨S100000x16, .f32⟩ : BufTy).Contents (Elt Ideal)) (x1 : (⟨S2x3200000, .i32⟩ : BufTy).Contents (Elt Ideal))
    (e0 : V (Proc.devRef .tc main_v27) = z) (e1 : V (Proc.devRef .tc main_v1) = (shapeCast _ (extractStridedSlice S1x3200000 ![0, 0] x1 slices_S2x3200000_S1x3200000_0_0) shapeCasts_S1x3200000_S3200000)) (e2 : V (Proc.devRef .tc main_v3) = (shapeCast _ (extractStridedSlice S1x3200000 ![1, 0] x1 slices_S2x3200000_S1x3200000_1_0) shapeCasts_S1x3200000_S3200000)) :
    StableHlo.after hostOps2 V (Proc.devRef .tc main_v37) = agg16 z x1 := by
  after_results
  rw [e0, e1, e2]
  unfold agg16 src dst
  rfl
/-- … and the third bias as a row. -/
theorem s2_v38 : StableHlo.after hostOps2 V (Proc.devRef .tc main_v38) = row1 (V (Proc.devRef .tc main_arg10)) := by
  after_results
  exact reshape_row1 _

end Cert.GraphNet.Stretch

end
-- ==== Proof.Layer0.lean ====
/-
  The first region's output array.

  The region tiles one layer of the graph convolution over 20 row blocks of 5000 nodes. On each block its body
  computes, entry by entry, max((a · W_rel + z · W_root) + b, 0) from the block a of the neighbour sums, the same
  block z of the node features, the two 1 × 16 weight rows and the 1 × 16 bias row. This module shows that, once
  all 20 blocks are written back, the 100000 × 16 output array is the layer's whole-array function
  max((A · W_rel + b) + Z · W_root, 0) of the five input arrays: each product is a one-term sum read at an entry,
  entry (p, q) of block t is row 5000 · t + p of the arrays, the two sides differ only in where the bias is added
  (addition on the extended reals is commutative and associative), and the 20 blocks cover every row.
-/
import proofs.«125403_j2929167695879_1_alg».proof.Proof.Gen.KernelIdeal.Frame
import proofs.«125403_j2929167695879_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GraphNet.Layer0

open Cert.KernelIdeal Cert.KernelIdeal.Gen Cert.GraphNet Idealize.ShloMosaic Idealize.ShloMosaic.TcCoe Idealize.SL.Sem
open Idealize.ShloMosaic.Pipeline (Dat)

open Idealize.ShloMosaic.ValueIdx (ix2 eq_ix2)

/-- The two zero offsets of a whole-block access, as a constant function. -/
theorem zero_offsets : (![0, 0] : Fin 2 → Nat) = fun _ => 0 := funext fun a => by fin_cases a <;> rfl

/-! ## A block product read at an index -/

/-- Row axis of the left operand of the block product: the output's row. -/
theorem blk_lhs_0 (i : S5000x16.Idx) (q : dot_S5000x1_S1x16_S5000x16_1_0_0_1_n_n.contr.Idx) :
    (dot_S5000x1_S1x16_S5000x16_1_0_0_1_n_n.lhsIdx i q 0).val = (i 0).val := by
  unfold DotDims.lhsIdx
  rw [dif_neg (show ¬(0 : Fin S5000x1.rank) ∈ dot_S5000x1_S1x16_S5000x16_1_0_0_1_n_n.lhsBatch by decide), dif_pos (show (0 : Fin S5000x1.rank) ∈ dot_S5000x1_S1x16_S5000x16_1_0_0_1_n_n.lhsNonContracting by decide)]
  rfl
/-- Column axis of the left operand of the block product: the contraction index. -/
theorem blk_lhs_1 (i : S5000x16.Idx) (q : dot_S5000x1_S1x16_S5000x16_1_0_0_1_n_n.contr.Idx) :
    (dot_S5000x1_S1x16_S5000x16_1_0_0_1_n_n.lhsIdx i q 1).val = (q ⟨0, by decide⟩).val :=
  dot_S5000x1_S1x16_S5000x16_1_0_0_1_n_n.lhsIdx_val_of_single rfl i q
/-- Row axis of the right operand of the block product: the contraction index. -/
theorem blk_rhs_0 (i : S5000x16.Idx) (q : dot_S5000x1_S1x16_S5000x16_1_0_0_1_n_n.contr.Idx) :
    (dot_S5000x1_S1x16_S5000x16_1_0_0_1_n_n.rhsIdx i q 0).val = (q ⟨0, by decide⟩).val :=
  dot_S5000x1_S1x16_S5000x16_1_0_0_1_n_n.rhsIdx_val_of_single rfl i q
/-- Column axis of the right operand of the block product: the output's column. -/
theorem blk_rhs_1 (i : S5000x16.Idx) (q : dot_S5000x1_S1x16_S5000x16_1_0_0_1_n_n.contr.Idx) :
    (dot_S5000x1_S1x16_S5000x16_1_0_0_1_n_n.rhsIdx i q 1).val = (i 1).val := by
  unfold DotDims.rhsIdx
  rw [dif_neg (show ¬(1 : Fin S1x16.rank) ∈ dot_S5000x1_S1x16_S5000x16_1_0_0_1_n_n.rhsBatch by decide), dif_pos (show (1 : Fin S1x16.rank) ∈ dot_S5000x1_S1x16_S5000x16_1_0_0_1_n_n.rhsNonContracting by decide)]
  rfl

/-- The product of a 5000 × 1 block with a 1 × 16 row, accumulated into zero, at entry (p, q): the sum over the one
    contraction index k of x(p, k) · w(k, q). -/
theorem blk_dot_apply {φ₁ φ₂ : FTy} (x : FVec Ideal S5000x1 φ₁) (w : FVec Ideal S1x16 φ₂) (p : Fin 5000) (q : Fin 16) :
    matmul (F := Ideal) dot_S5000x1_S1x16_S5000x16_1_0_0_1_n_n none x w (constant (F := Ideal) S5000x16 .f32 0x00000000#32) (ix2 p q)
      = ∑ k : Fin 1, x (ix2 p k) * w (ix2 k q) := by
  simp only [matmul]
  rw [Ideal.matmul_constant_zero_apply, ← Equiv.sum_comp (ValueIdx.contrEquiv1 dot_S5000x1_S1x16_S5000x16_1_0_0_1_n_n 1 rfl rfl).symm]
  refine Finset.sum_congr rfl fun k _ => ?_
  have hk := ValueIdx.contrEquiv1_symm_val dot_S5000x1_S1x16_S5000x16_1_0_0_1_n_n 1 rfl rfl k
  have el : dot_S5000x1_S1x16_S5000x16_1_0_0_1_n_n.lhsIdx (ix2 p q) ((ValueIdx.contrEquiv1 dot_S5000x1_S1x16_S5000x16_1_0_0_1_n_n 1 rfl rfl).symm k) = ix2 p k := funext fun a => Fin.ext (by
    match a with
    | ⟨0, _⟩ => exact blk_lhs_0 _ _
    | ⟨1, _⟩ => exact (blk_lhs_1 _ _).trans hk)
  have er : dot_S5000x1_S1x16_S5000x16_1_0_0_1_n_n.rhsIdx (ix2 p q) ((ValueIdx.contrEquiv1 dot_S5000x1_S1x16_S5000x16_1_0_0_1_n_n 1 rfl rfl).symm k) = ix2 k q := funext fun a => Fin.ext (by
    match a with
    | ⟨0, _⟩ => exact (blk_rhs_0 _ _).trans hk
    | ⟨1, _⟩ => exact blk_rhs_1 _ _)
  rw [el, er]

/-! ## The body's arithmetic at an entry -/

/-- The block the body stores, at entry (p, q): the positive part of the two one-term products' sum plus the bias
    row's entry q; rounding to the narrower format is the identity on the extended reals and the zero word is 0. -/
theorem pay_apply (x0 x1 : Vec Ideal S5000x1 .f32) (x2 x3 x4 : Vec Ideal S1x16 .f32) (p : Fin 5000) (q : Fin 16) :
    k0_pay1 (F := Ideal) x0 x1 x2 x3 x4 (ix2 p q)
      = max (((∑ k : Fin 1, x0 (ix2 p k) * x2 (ix2 k q)) + ∑ k : Fin 1, x1 (ix2 p k) * x3 (ix2 k q)) + x4 (ix2 (0 : Fin 1) q)) 0 := by
  unfold k0_pay1
  rw [ValueIdx.maximumf_apply, ValueIdx.addf_apply, ValueIdx.addf_apply, blk_dot_apply, blk_dot_apply,
    ValueIdx.broadcastTo_1b_ab_apply, shapeCast_self, shapeCast_self, ValueIdx.broadcast_apply]
  simp only [ValueIdx.truncf_apply]
  exact congrArg (max _) Ideal.ofBits_zero_f32

/-! ## A whole-array product read at an index -/

/-- Row axis of the left operand of the whole-array product: the output's row. -/
theorem arr_lhs_0 (i : Cert.ReferenceIdeal.S100000x16.Idx) (q : Cert.ReferenceIdeal.dot_S100000x1_S1x16_S100000x16_1_0_0_1_n_n.contr.Idx) :
    (Cert.ReferenceIdeal.dot_S100000x1_S1x16_S100000x16_1_0_0_1_n_n.lhsIdx i q 0).val = (i 0).val := by
  unfold DotDims.lhsIdx
  rw [dif_neg (show ¬(0 : Fin Cert.ReferenceIdeal.S100000x1.rank) ∈ Cert.ReferenceIdeal.dot_S100000x1_S1x16_S100000x16_1_0_0_1_n_n.lhsBatch by decide), dif_pos (show (0 : Fin Cert.ReferenceIdeal.S100000x1.rank) ∈ Cert.ReferenceIdeal.dot_S100000x1_S1x16_S100000x16_1_0_0_1_n_n.lhsNonContracting by decide)]
  rfl
/-- Column axis of the left operand of the whole-array product: the contraction index. -/
theorem arr_lhs_1 (i : Cert.ReferenceIdeal.S100000x16.Idx) (q : Cert.ReferenceIdeal.dot_S100000x1_S1x16_S100000x16_1_0_0_1_n_n.contr.Idx) :
    (Cert.ReferenceIdeal.dot_S100000x1_S1x16_S100000x16_1_0_0_1_n_n.lhsIdx i q 1).val = (q ⟨0, by decide⟩).val :=
  Cert.ReferenceIdeal.dot_S100000x1_S1x16_S100000x16_1_0_0_1_n_n.lhsIdx_val_of_single rfl i q
/-- Row axis of the right operand of the whole-array product: the contraction index. -/
theorem arr_rhs_0 (i : Cert.ReferenceIdeal.S100000x16.Idx) (q : Cert.ReferenceIdeal.dot_S100000x1_S1x16_S100000x16_1_0_0_1_n_n.contr.Idx) :
    (Cert.ReferenceIdeal.dot_S100000x1_S1x16_S100000x16_1_0_0_1_n_n.rhsIdx i q 0).val = (q ⟨0, by decide⟩).val :=
  Cert.ReferenceIdeal.dot_S100000x1_S1x16_S100000x16_1_0_0_1_n_n.rhsIdx_val_of_single rfl i q
/-- Column axis of the right operand of the whole-array product: the output's column. -/
theorem arr_rhs_1 (i : Cert.ReferenceIdeal.S100000x16.Idx) (q : Cert.ReferenceIdeal.dot_S100000x1_S1x16_S100000x16_1_0_0_1_n_n.contr.Idx) :
    (Cert.ReferenceIdeal.dot_S100000x1_S1x16_S100000x16_1_0_0_1_n_n.rhsIdx i q 1).val = (i 1).val := by
  unfold DotDims.rhsIdx
  rw [dif_neg (show ¬(1 : Fin Cert.ReferenceIdeal.S1x16.rank) ∈ Cert.ReferenceIdeal.dot_S100000x1_S1x16_S100000x16_1_0_0_1_n_n.rhsBatch by decide), dif_pos (show (1 : Fin Cert.ReferenceIdeal.S1x16.rank) ∈ Cert.ReferenceIdeal.dot_S100000x1_S1x16_S100000x16_1_0_0_1_n_n.rhsNonContracting by decide)]
  rfl

/-- The product of a 100000 × 1 column with a 1 × 16 row at entry (r, q): the sum over the one contraction index k of
    x(r, k) · w(k, q). -/
theorem arr_dot_apply (x : FVec Ideal Cert.ReferenceIdeal.S100000x1 .f32) (w : FVec Ideal Cert.ReferenceIdeal.S1x16 .f32) (r : Fin 100000) (q : Fin 16) :
    Host.dotGeneral (F := Ideal) Cert.ReferenceIdeal.dot_S100000x1_S1x16_S100000x16_1_0_0_1_n_n none x w (ix2 r q)
      = ∑ k : Fin 1, x (ix2 r k) * w (ix2 k q) := by
  simp only [Host.dotGeneral]
  rw [Ideal.dotGeneral_apply, ← Equiv.sum_comp (ValueIdx.contrEquiv1 Cert.ReferenceIdeal.dot_S100000x1_S1x16_S100000x16_1_0_0_1_n_n 1 rfl rfl).symm]
  refine Finset.sum_congr rfl fun k _ => ?_
  have hk := ValueIdx.contrEquiv1_symm_val Cert.ReferenceIdeal.dot_S100000x1_S1x16_S100000x16_1_0_0_1_n_n 1 rfl rfl k
  have el : Cert.ReferenceIdeal.dot_S100000x1_S1x16_S100000x16_1_0_0_1_n_n.lhsIdx (ix2 r q) ((ValueIdx.contrEquiv1 Cert.ReferenceIdeal.dot_S100000x1_S1x16_S100000x16_1_0_0_1_n_n 1 rfl rfl).symm k) = ix2 r k := funext fun a => Fin.ext (by
    match a with
    | ⟨0, _⟩ => exact arr_lhs_0 _ _
    | ⟨1, _⟩ => exact (arr_lhs_1 _ _).trans hk)
  have er : Cert.ReferenceIdeal.dot_S100000x1_S1x16_S100000x16_1_0_0_1_n_n.rhsIdx (ix2 r q) ((ValueIdx.contrEquiv1 Cert.ReferenceIdeal.dot_S100000x1_S1x16_S100000x16_1_0_0_1_n_n 1 rfl rfl).symm k) = ix2 k q := funext fun a => Fin.ext (by
    match a with
    | ⟨0, _⟩ => exact (arr_rhs_0 _ _).trans hk
    | ⟨1, _⟩ => exact arr_rhs_1 _ _)
  rw [el, er]

/-! ## The layer's whole-array function at an entry -/

/-- The first layer's positive part at entry (r, q): the first product plus the bias row's entry q, plus the second
    product, then the maximum with 0. -/
theorem spec_apply (A Z : (⟨Cert.ReferenceIdeal.S100000x1, .f32⟩ : BufTy).Contents (Elt Ideal))
    (Wr Wo B : (⟨Cert.ReferenceIdeal.S1x16, .f32⟩ : BufTy).Contents (Elt Ideal)) (r : Fin 100000) (q : Fin 16) :
    relu16 (F := Ideal) (lin1 A Z Wr Wo B) (ix2 r q)
      = max (((∑ k : Fin 1, A (ix2 r k) * Wr (ix2 k q)) + B (ix2 (0 : Fin 1) q)) + ∑ k : Fin 1, Z (ix2 r k) * Wo (ix2 k q)) 0 := by
  unfold relu16 lin1
  rw [ValueIdx.maximumf_apply, ValueIdx.addf_apply, ValueIdx.addf_apply, arr_dot_apply, arr_dot_apply,
    broadcastInDim_apply _ Cert.ReferenceIdeal.Gen.bcast_S1x16_S100000x16_0_1 B (ix2 r q) (ix2 (0 : Fin 1) q) (fun a => match a with
      | ⟨0, _⟩ => by show 0 = if (1 : Nat) = 1 then 0 else r.val; rw [if_pos rfl]
      | ⟨1, _⟩ => by show q.val = if (16 : Nat) = 1 then 0 else q.val; rw [if_neg (by decide)]),
    broadcastInDim_apply _ Cert.ReferenceIdeal.Gen.bcast_S_S100000x16 _ (ix2 r q) ValueIdx.ix0 (fun a => a.elim0)]
  exact congrArg (max _) Ideal.ofBits_zero_f32

/-! ## One entry of a block against one entry of the array -/

/-- If a block's operands agree with the arrays at the entries that output entry (p, q) of the block and (r, q) of the
    array read, then the body's result there is the layer's: both are the positive part of the same three summands,
    the bias added last in the one and between the products in the other. -/
theorem point_eq (x0 x1 : Vec Ideal S5000x1 .f32) (x2 x3 x4 : Vec Ideal S1x16 .f32)
    (A Z : (⟨Cert.ReferenceIdeal.S100000x1, .f32⟩ : BufTy).Contents (Elt Ideal))
    (Wr Wo B : (⟨Cert.ReferenceIdeal.S1x16, .f32⟩ : BufTy).Contents (Elt Ideal))
    (p : Fin 5000) (r : Fin 100000) (q : Fin 16)
    (h0 : ∀ k : Fin 1, x0 (ix2 p k) = A (ix2 r k)) (h1 : ∀ k : Fin 1, x1 (ix2 p k) = Z (ix2 r k))
    (h2 : ∀ k : Fin 1, x2 (ix2 k q) = Wr (ix2 k q)) (h3 : ∀ k : Fin 1, x3 (ix2 k q) = Wo (ix2 k q))
    (h4 : x4 (ix2 (0 : Fin 1) q) = B (ix2 (0 : Fin 1) q)) :
    k0_pay1 (F := Ideal) x0 x1 x2 x3 x4 (ix2 p q) = relu16 (F := Ideal) (lin1 A Z Wr Wo B) (ix2 r q) := by
  rw [pay_apply, spec_apply]
  simp only [h0, h1, h2, h3]
  rw [h4, add_right_comm]

/-! ## The grid's block indices -/

/-- Decided over the 20 grid points: the two column blocks move with the output's row block, which stays below 20;
    every other block index is 0. -/
theorem idx_facts : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 19 ∧ win0_5.index t (1 : Fin 2) = 0 :=
  (by decide +kernel : ∀ t : Fin grid0.N, _)

/-- Every one of the 20 row blocks of the output is some grid point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-! ## From the blocks to the array -/

section Blocks
variable (V : (c : Dev nD) → (b : Ref sig .tc) → Buf (Elt Ideal) ((c : Thread nD τ).loc b))

/-- The layer's whole-array function of the region's five input arrays: the positive part of the affine map of the
    neighbour sums, the node features, the two weight rows and the bias row. -/
abbrev layer (c : Dev nD) : (⟨Cert.ReferenceIdeal.S100000x16, .f32⟩ : BufTy).Contents (Elt Ideal) :=
  relu16 (lin1 (V c main_v13) (V c main_arg0) (V c main_arg2) (V c main_arg3) (V c main_v14))

/-- What grid point t writes back is block t of the layer's whole-array function: entry (p, q) of the block is row
    5000 · (row block of t) + p of the arrays, the weight and bias rows are read whole, and the two sides differ only
    in where the bias is added, which commutes on the extended reals. -/
theorem flushed_eq (c : Dev nD) (t : Fin cfg0.N) :
    (dat0 (F := Ideal) V c).flushed 5 t = ((cfg0.win 5).blk t).view.read (Elt Ideal) (layer V c) := by
  show (cfg0.win 5).cut (grid0.coords t) ((dat0 V c).after 5 t) = _
  rw [after0_5]
  unfold out0_5
  rw [View.canon_unit_zero zero_offsets]
  simp only [View.ld_unit_zero (S := S5000x1) zero_offsets, View.ld_unit_zero (S := S1x16) zero_offsets]
  funext j
  obtain ⟨p, q, rfl⟩ : ∃ (p : Fin 5000) (q : Fin 16), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = layer V c (((cfg0.win 5).blk t).view.emb (ix2 p q))
  obtain ⟨e00, e01, e10, e11, e20, e21, e30, e31, e40, e41, e50, e51⟩ := idx_facts t
  have hp : p.val < 5000 := p.isLt
  obtain ⟨r, hr⟩ : ∃ r : Fin 100000, r.val = win0_5.index t (0 : Fin 2) * 5000 + 1 * p.val := ⟨⟨_, by omega⟩, rfl⟩
  have hi : ((cfg0.win 5).blk t).view.emb (ix2 p q) = ix2 r q := by
    funext a; apply Fin.ext
    match a with
    | ⟨0, _⟩ => show win0_5.index t (0 : Fin 2) * 5000 + 1 * p.val = r.val; omega
    | ⟨1, _⟩ => show win0_5.index t (1 : Fin 2) * 16 + 1 * q.val = q.val; omega
  refine Eq.trans ?_ (congrArg (layer V c) hi).symm
  refine point_eq (iblk0 V c 0 t) (iblk0 V c 1 t) (iblk0 V c 2 t) (iblk0 V c 3 t) (iblk0 V c 4 t)
    (V c main_v13) (V c main_arg0) (V c main_arg2) (V c main_arg3) (V c main_v14) p r q ?_ ?_ ?_ ?_ ?_
  · intro k
    show V c main_v13 (((cfg0.win 0).blk t).view.emb (ix2 p k)) = V c main_v13 (ix2 r k)
    refine congrArg (V c main_v13) (funext fun a => Fin.ext ?_)
    match a with
    | ⟨0, _⟩ => show win0_0.index t (0 : Fin 2) * 5000 + 1 * p.val = r.val; omega
    | ⟨1, _⟩ => show win0_0.index t (1 : Fin 2) * 1 + 1 * k.val = k.val; omega
  · intro k
    show V c main_arg0 (((cfg0.win 1).blk t).view.emb (ix2 p k)) = V c main_arg0 (ix2 r k)
    refine congrArg (V c main_arg0) (funext fun a => Fin.ext ?_)
    match a with
    | ⟨0, _⟩ => show win0_1.index t (0 : Fin 2) * 5000 + 1 * p.val = r.val; omega
    | ⟨1, _⟩ => show win0_1.index t (1 : Fin 2) * 1 + 1 * k.val = k.val; omega
  · intro k
    show V c main_arg2 (((cfg0.win 2).blk t).view.emb (ix2 k q)) = V c main_arg2 (ix2 k q)
    refine congrArg (V c main_arg2) (funext fun a => Fin.ext ?_)
    match a with
    | ⟨0, _⟩ => show win0_2.index t (0 : Fin 2) * 1 + 1 * k.val = k.val; omega
    | ⟨1, _⟩ => show win0_2.index t (1 : Fin 2) * 16 + 1 * q.val = q.val; omega
  · intro k
    show V c main_arg3 (((cfg0.win 3).blk t).view.emb (ix2 k q)) = V c main_arg3 (ix2 k q)
    refine congrArg (V c main_arg3) (funext fun a => Fin.ext ?_)
    match a with
    | ⟨0, _⟩ => show win0_3.index t (0 : Fin 2) * 1 + 1 * k.val = k.val; omega
    | ⟨1, _⟩ => show win0_3.index t (1 : Fin 2) * 16 + 1 * q.val = q.val; omega
  · show V c main_v14 (((cfg0.win 4).blk t).view.emb (ix2 (0 : Fin 1) q)) = V c main_v14 (ix2 (0 : Fin 1) q)
    refine congrArg (V c main_v14) (funext fun a => Fin.ext ?_)
    match a with
    | ⟨0, _⟩ => show win0_4.index t (0 : Fin 2) * 1 + 1 * 0 = 0; omega
    | ⟨1, _⟩ => show win0_4.index t (1 : Fin 2) * 16 + 1 * q.val = q.val; omega

/-- An index of the output array is in point t's block iff each coordinate is in the block's range on its axis. -/
theorem mem_blk (t : Fin cfg0.N) (i : S100000x16.Idx) :
    i ∈ ((cfg0.win 5).blk t).view.set ↔ ∀ a : Fin 2, win0_5.index t a * S5000x16.size a ≤ (i a).val ∧ (i a).val < win0_5.index t a * S5000x16.size a + S5000x16.size a := by
  show i ∈ ((View.whole main_v15).slice (win0_5.rect t)).set ↔ _
  rw [View.set_slice_whole, Rect.mem_set_unit]
  exact Iff.rfl

/-- Every entry of the output array is written back by some grid point: row r lies in row block r / 5000, and every
    point writes back. -/
theorem cover (i : S100000x16.Idx) : ∃ t : Fin cfg0.N, (cfg0.win 5).flush t = true ∧ i ∈ ((cfg0.win 5).blk t).view.set := by
  have hi0 : (i 0).val < 100000 := (i 0).isLt
  have hi1 : (i 1).val < 16 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 16 ≤ (i 1).val ∧ (i 1).val < win0_5.index t (1 : Fin 2) * 16 + 16; omega

end Blocks

/-- After the first region, run from buffer contents V, its output array holds the positive part of the first
    layer's affine map of the region's five input arrays: the neighbour sums, the node features, the two 1 × 16
    weight rows and the bias row. -/
theorem region_out (V : (c : Dev nD) → (b : Ref sig .tc) → Buf (Elt Ideal) ((c : Thread nD τ).loc b)) (c : Dev nD) :
    (dat0 (F := Ideal) V c).arrAt 5 cfg0.N
      = relu16 (lin1 (V c main_v13) (V c main_arg0) (V c main_arg2) (V c main_arg3) (V c main_v14)) :=
  (dat0 V c).arrAt_eq_of_cover 5 (layer V c) (fun t _ => flushed_eq V c t) cover

end Cert.GraphNet.Layer0

end
-- ==== Proof.Layer1.lean ====
/-
  The second region's output array, as one function of the region's five input arrays.

  The region tiles the 100000 nodes into 20 blocks of 5000 rows.  At each block it forms
      (a · W_rel + z · W_root) + b
  from the block's rows a of the neighbour sums and z of the hidden features, the two 16 × 16 weight matrices and
  the bias row b laid along every row, and writes the 5000 × 16 result back to the same rows of the output.  The
  reference's layer is (A · W_rel + b) + Z · W_root on all rows at once: entry by entry the same three terms, added
  in another order, and addition on the extended reals is commutative and associative.  The module reads both
  sides at an index as sums over the 16 contracted columns, identifies each block's rows with the array's, shows
  that the 20 blocks cover every row, and concludes that the output array holds the reference's layer.
-/
import proofs.«125403_j2929167695879_1_alg».proof.Proof.Gen.KernelIdeal.Frame
import proofs.«125403_j2929167695879_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GraphNet.Layer1

open Cert.KernelIdeal Cert.KernelIdeal.Gen Cert.GraphNet Idealize.ShloMosaic Idealize.ShloMosaic.TcCoe Idealize.SL.Sem
open Idealize.ShloMosaic.Pipeline (Dat)
open scoped BigOperators

/-! ## The two products, read at an index -/

/-- The block product's left operand is read at the output's row … -/
theorem klhs_0 (i : Cert.KernelIdeal.S5000x16.Idx) (q : Cert.KernelIdeal.dot_S5000x16_S16x16_S5000x16_1_0_0_1_n_n.contr.Idx) :
    (Cert.KernelIdeal.dot_S5000x16_S16x16_S5000x16_1_0_0_1_n_n.lhsIdx i q 0).val = (i 0).val := by
  unfold DotDims.lhsIdx
  rw [dif_neg (show ¬(0 : Fin Cert.KernelIdeal.S5000x16.rank) ∈ Cert.KernelIdeal.dot_S5000x16_S16x16_S5000x16_1_0_0_1_n_n.lhsBatch by decide), dif_pos (show (0 : Fin Cert.KernelIdeal.S5000x16.rank) ∈ Cert.KernelIdeal.dot_S5000x16_S16x16_S5000x16_1_0_0_1_n_n.lhsNonContracting by decide)]
  rfl
/-- … and at the contracted column; -/
theorem klhs_1 (i : Cert.KernelIdeal.S5000x16.Idx) (q : Cert.KernelIdeal.dot_S5000x16_S16x16_S5000x16_1_0_0_1_n_n.contr.Idx) :
    (Cert.KernelIdeal.dot_S5000x16_S16x16_S5000x16_1_0_0_1_n_n.lhsIdx i q 1).val = (q ⟨0, by decide⟩).val :=
  Cert.KernelIdeal.dot_S5000x16_S16x16_S5000x16_1_0_0_1_n_n.lhsIdx_val_of_single rfl i q
/-- its right operand at the contracted row … -/
theorem krhs_0 (i : Cert.KernelIdeal.S5000x16.Idx) (q : Cert.KernelIdeal.dot_S5000x16_S16x16_S5000x16_1_0_0_1_n_n.contr.Idx) :
    (Cert.KernelIdeal.dot_S5000x16_S16x16_S5000x16_1_0_0_1_n_n.rhsIdx i q 0).val = (q ⟨0, by decide⟩).val :=
  Cert.KernelIdeal.dot_S5000x16_S16x16_S5000x16_1_0_0_1_n_n.rhsIdx_val_of_single rfl i q
/-- … and at the output's column. -/
theorem krhs_1 (i : Cert.KernelIdeal.S5000x16.Idx) (q : Cert.KernelIdeal.dot_S5000x16_S16x16_S5000x16_1_0_0_1_n_n.contr.Idx) :
    (Cert.KernelIdeal.dot_S5000x16_S16x16_S5000x16_1_0_0_1_n_n.rhsIdx i q 1).val = (i 1).val := by
  unfold DotDims.rhsIdx
  rw [dif_neg (show ¬(1 : Fin Cert.KernelIdeal.S16x16.rank) ∈ Cert.KernelIdeal.dot_S5000x16_S16x16_S5000x16_1_0_0_1_n_n.rhsBatch by decide), dif_pos (show (1 : Fin Cert.KernelIdeal.S16x16.rank) ∈ Cert.KernelIdeal.dot_S5000x16_S16x16_S5000x16_1_0_0_1_n_n.rhsNonContracting by decide)]
  rfl

/-- A block product into the zero accumulator, at row p and column q, is the sum over the 16 contracted columns
    of the left operand's row p times the right operand's column q. -/
theorem blockProduct_apply {φ₁ φ₂ : FTy} (x : FVec Ideal Cert.KernelIdeal.S5000x16 φ₁) (w : FVec Ideal Cert.KernelIdeal.S16x16 φ₂) (p : Fin 5000) (q : Fin 16) :
    matmul (F := Ideal) Cert.KernelIdeal.dot_S5000x16_S16x16_S5000x16_1_0_0_1_n_n none x w
        (constant (F := Ideal) Cert.KernelIdeal.S5000x16 .f32 0x00000000#32) (ValueIdx.ix2 p q)
      = ∑ k : Fin 16, x (ValueIdx.ix2 p k) * w (ValueIdx.ix2 k q) := by
  show FloatOps.matmul Cert.KernelIdeal.dot_S5000x16_S16x16_S5000x16_1_0_0_1_n_n none x w
        (constant (F := Ideal) Cert.KernelIdeal.S5000x16 .f32 0x00000000#32) (ValueIdx.ix2 p q) = _
  rw [Ideal.matmul_constant_zero_apply, ← Equiv.sum_comp (ValueIdx.contrEquiv1 Cert.KernelIdeal.dot_S5000x16_S16x16_S5000x16_1_0_0_1_n_n 16 rfl rfl).symm]
  refine Finset.sum_congr rfl fun k _ => ?_
  have hk := ValueIdx.contrEquiv1_symm_val Cert.KernelIdeal.dot_S5000x16_S16x16_S5000x16_1_0_0_1_n_n 16 rfl rfl k
  have el : Cert.KernelIdeal.dot_S5000x16_S16x16_S5000x16_1_0_0_1_n_n.lhsIdx (ValueIdx.ix2 p q) ((ValueIdx.contrEquiv1 Cert.KernelIdeal.dot_S5000x16_S16x16_S5000x16_1_0_0_1_n_n 16 rfl rfl).symm k) = ValueIdx.ix2 p k := funext fun a => Fin.ext (by
    match a with
    | ⟨0, _⟩ => exact klhs_0 _ _
    | ⟨1, _⟩ => exact (klhs_1 _ _).trans hk)
  have er : Cert.KernelIdeal.dot_S5000x16_S16x16_S5000x16_1_0_0_1_n_n.rhsIdx (ValueIdx.ix2 p q) ((ValueIdx.contrEquiv1 Cert.KernelIdeal.dot_S5000x16_S16x16_S5000x16_1_0_0_1_n_n 16 rfl rfl).symm k) = ValueIdx.ix2 k q := funext fun a => Fin.ext (by
    match a with
    | ⟨0, _⟩ => exact (krhs_0 _ _).trans hk
    | ⟨1, _⟩ => exact krhs_1 _ _)
  rw [el, er]

/-- The whole-array product's left operand is read at the output's row … -/
theorem rlhs_0 (i : Cert.ReferenceIdeal.S100000x16.Idx) (q : Cert.ReferenceIdeal.dot_S100000x16_S16x16_S100000x16_1_0_0_1_n_n.contr.Idx) :
    (Cert.ReferenceIdeal.dot_S100000x16_S16x16_S100000x16_1_0_0_1_n_n.lhsIdx i q 0).val = (i 0).val := by
  unfold DotDims.lhsIdx
  rw [dif_neg (show ¬(0 : Fin Cert.ReferenceIdeal.S100000x16.rank) ∈ Cert.ReferenceIdeal.dot_S100000x16_S16x16_S100000x16_1_0_0_1_n_n.lhsBatch by decide), dif_pos (show (0 : Fin Cert.ReferenceIdeal.S100000x16.rank) ∈ Cert.ReferenceIdeal.dot_S100000x16_S16x16_S100000x16_1_0_0_1_n_n.lhsNonContracting by decide)]
  rfl
/-- … and at the contracted column; -/
theorem rlhs_1 (i : Cert.ReferenceIdeal.S100000x16.Idx) (q : Cert.ReferenceIdeal.dot_S100000x16_S16x16_S100000x16_1_0_0_1_n_n.contr.Idx) :
    (Cert.ReferenceIdeal.dot_S100000x16_S16x16_S100000x16_1_0_0_1_n_n.lhsIdx i q 1).val = (q ⟨0, by decide⟩).val :=
  Cert.ReferenceIdeal.dot_S100000x16_S16x16_S100000x16_1_0_0_1_n_n.lhsIdx_val_of_single rfl i q
/-- its right operand at the contracted row … -/
theorem rrhs_0 (i : Cert.ReferenceIdeal.S100000x16.Idx) (q : Cert.ReferenceIdeal.dot_S100000x16_S16x16_S100000x16_1_0_0_1_n_n.contr.Idx) :
    (Cert.ReferenceIdeal.dot_S100000x16_S16x16_S100000x16_1_0_0_1_n_n.rhsIdx i q 0).val = (q ⟨0, by decide⟩).val :=
  Cert.ReferenceIdeal.dot_S100000x16_S16x16_S100000x16_1_0_0_1_n_n.rhsIdx_val_of_single rfl i q
/-- … and at the output's column. -/
theorem rrhs_1 (i : Cert.ReferenceIdeal.S100000x16.Idx) (q : Cert.ReferenceIdeal.dot_S100000x16_S16x16_S100000x16_1_0_0_1_n_n.contr.Idx) :
    (Cert.ReferenceIdeal.dot_S100000x16_S16x16_S100000x16_1_0_0_1_n_n.rhsIdx i q 1).val = (i 1).val := by
  unfold DotDims.rhsIdx
  rw [dif_neg (show ¬(1 : Fin Cert.ReferenceIdeal.S16x16.rank) ∈ Cert.ReferenceIdeal.dot_S100000x16_S16x16_S100000x16_1_0_0_1_n_n.rhsBatch by decide), dif_pos (show (1 : Fin Cert.ReferenceIdeal.S16x16.rank) ∈ Cert.ReferenceIdeal.dot_S100000x16_S16x16_S100000x16_1_0_0_1_n_n.rhsNonContracting by decide)]
  rfl

/-- The whole-array product, at row r and column q, is the sum over the 16 contracted columns of the left
    operand's row r times the right operand's column q. -/
theorem arrayProduct_apply (x : FVec Ideal Cert.ReferenceIdeal.S100000x16 .f32) (w : FVec Ideal Cert.ReferenceIdeal.S16x16 .f32) (r : Fin 100000) (q : Fin 16) :
    Host.dotGeneral (F := Ideal) Cert.ReferenceIdeal.dot_S100000x16_S16x16_S100000x16_1_0_0_1_n_n none x w (ValueIdx.ix2 r q)
      = ∑ k : Fin 16, x (ValueIdx.ix2 r k) * w (ValueIdx.ix2 k q) := by
  simp only [Host.dotGeneral]
  rw [Ideal.dotGeneral_apply, ← Equiv.sum_comp (ValueIdx.contrEquiv1 Cert.ReferenceIdeal.dot_S100000x16_S16x16_S100000x16_1_0_0_1_n_n 16 rfl rfl).symm]
  refine Finset.sum_congr rfl fun k _ => ?_
  have hk := ValueIdx.contrEquiv1_symm_val Cert.ReferenceIdeal.dot_S100000x16_S16x16_S100000x16_1_0_0_1_n_n 16 rfl rfl k
  have el : Cert.ReferenceIdeal.dot_S100000x16_S16x16_S100000x16_1_0_0_1_n_n.lhsIdx (ValueIdx.ix2 r q) ((ValueIdx.contrEquiv1 Cert.ReferenceIdeal.dot_S100000x16_S16x16_S100000x16_1_0_0_1_n_n 16 rfl rfl).symm k) = ValueIdx.ix2 r k := funext fun a => Fin.ext (by
    match a with
    | ⟨0, _⟩ => exact rlhs_0 _ _
    | ⟨1, _⟩ => exact (rlhs_1 _ _).trans hk)
  have er : Cert.ReferenceIdeal.dot_S100000x16_S16x16_S100000x16_1_0_0_1_n_n.rhsIdx (ValueIdx.ix2 r q) ((ValueIdx.contrEquiv1 Cert.ReferenceIdeal.dot_S100000x16_S16x16_S100000x16_1_0_0_1_n_n 16 rfl rfl).symm k) = ValueIdx.ix2 k q := funext fun a => Fin.ext (by
    match a with
    | ⟨0, _⟩ => exact (rrhs_0 _ _).trans hk
    | ⟨1, _⟩ => exact rrhs_1 _ _)
  rw [el, er]

/-! ## The block's payload and the reference's layer, read at an index -/

/-- The bias row laid along the 5000 rows of a block reads, at any row, the row's entry in that column. -/
theorem biasRows_apply (b : Vec Ideal Cert.KernelIdeal.S1x16 .f32) (h : Cert.KernelIdeal.S1x16.Broadcasts Cert.KernelIdeal.S5000x16)
    (p : Fin 5000) (q : Fin 16) :
    broadcastTo Cert.KernelIdeal.S5000x16 b h (ValueIdx.ix2 p q) = b (ValueIdx.ix2 (0 : Fin 1) q) :=
  broadcastTo_apply b h (ValueIdx.ix2 p q) (ValueIdx.ix2 (0 : Fin 1) q) (fun a => by
    match a with
    | ⟨0, _⟩ => rfl
    | ⟨1, _⟩ => rfl)

/-- What the body stores, at row p and column q of the block: the two products' sums, then the bias entry. -/
theorem payload_apply (x0 x1 : Vec Ideal Cert.KernelIdeal.S5000x16 .f32) (x2 x3 : Vec Ideal Cert.KernelIdeal.S16x16 .f32)
    (x4 : Vec Ideal Cert.KernelIdeal.S1x16 .f32) (p : Fin 5000) (q : Fin 16) :
    k1_pay1 (F := Ideal) x0 x1 x2 x3 x4 (ValueIdx.ix2 p q)
      = ((∑ k : Fin 16, x0 (ValueIdx.ix2 p k) * x2 (ValueIdx.ix2 k q)) + (∑ k : Fin 16, x1 (ValueIdx.ix2 p k) * x3 (ValueIdx.ix2 k q)))
        + x4 (ValueIdx.ix2 (0 : Fin 1) q) := by
  unfold k1_pay1
  simp only [shapeCast_self]
  rw [ValueIdx.addf_apply, ValueIdx.addf_apply, blockProduct_apply, blockProduct_apply, biasRows_apply]
  rfl

/-- The reference's layer, at row r and column q: the first product's sum, the bias entry, the second product's sum. -/
theorem lin2_apply (a z : FVec Ideal Cert.ReferenceIdeal.S100000x16 .f32) (wr wo : FVec Ideal Cert.ReferenceIdeal.S16x16 .f32)
    (b : FVec Ideal Cert.ReferenceIdeal.S1x16 .f32) (r : Fin 100000) (q : Fin 16) :
    lin2 (F := Ideal) a z wr wo b (ValueIdx.ix2 r q)
      = ((∑ k : Fin 16, a (ValueIdx.ix2 r k) * wr (ValueIdx.ix2 k q)) + b (ValueIdx.ix2 (0 : Fin 1) q))
        + ∑ k : Fin 16, z (ValueIdx.ix2 r k) * wo (ValueIdx.ix2 k q) := by
  unfold lin2
  rw [ValueIdx.addf_apply, ValueIdx.addf_apply, arrayProduct_apply, arrayProduct_apply,
    broadcastInDim_apply ![0, 1] _ b (ValueIdx.ix2 r q) (ValueIdx.ix2 (0 : Fin 1) q) (fun a => by
      match a with
      | ⟨0, _⟩ => rfl
      | ⟨1, _⟩ => rfl)]

/-! ## From the blocks to the array -/

/-- The zero offsets of the body's whole-buffer accesses, as a constant function. -/
theorem zeroOffsets : (![0, 0] : Fin 2 → Nat) = fun _ => 0 := funext fun a => by fin_cases a <;> rfl

/-- The index maps over the 20 points: the neighbour sums' and the features' blocks move down the rows with the
    output's block and stay in column block 0; the weights and the bias row stay at block (0, 0); the output's row
    block is below 20 and its column block is 0. -/
theorem blockIndices : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 19 ∧ win1_5.index t (1 : Fin 2) = 0 :=
  (by decide +kernel : ∀ t : Fin grid1.N, _)

/-- Every one of the 20 row blocks is some point's. -/
theorem blockOnto : ∀ q0 : Fin 20, ∃ t : Fin cfg1.N, win1_5.index t = ![q0.val, 0] :=
  (by decide +kernel : ∀ q0 : Fin 20, ∃ t : Fin grid1.N, win1_5.index t = ![q0.val, 0])

/-- What point t writes back is block t of the reference's layer of the five input arrays as the region finds them. -/
theorem flushed_eq (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal)
      (lin2 (V c main_v25) (V c main_v15) (V c main_arg5) (V c main_arg6) (V c main_v26)) := by
  show (cfg1.win 5).cut (grid1.coords t) ((dat1 (F := Ideal) V c).after 5 t) = _
  rw [after1_5]
  unfold out1_5
  rw [View.canon_unit_zero zeroOffsets]
  simp only [View.ld_unit_zero (S := Cert.KernelIdeal.S5000x16) zeroOffsets, View.ld_unit_zero (S := Cert.KernelIdeal.S16x16) zeroOffsets, View.ld_unit_zero (S := Cert.KernelIdeal.S1x16) zeroOffsets]
  obtain ⟨e00, e01, e10, e11, e20, e21, e30, e31, e40, e41, e50, e51⟩ := blockIndices t
  funext j
  obtain ⟨p, q, rfl⟩ : ∃ (p : Fin 5000) (q : Fin 16), j = ValueIdx.ix2 p q := ⟨j 0, j 1, ValueIdx.eq_ix2 j⟩
  have hp : p.val < 5000 := p.isLt
  have hr : win1_5.index t (0 : Fin 2) * 5000 + p.val < 100000 := by omega
  -- the block's place in the array: row 5000 · (row block) + p, column q
  have hemb : ((cfg1.win 5).blk t).view.emb (ValueIdx.ix2 p q)
      = ValueIdx.ix2 (⟨win1_5.index t (0 : Fin 2) * 5000 + p.val, hr⟩ : Fin 100000) q := by
    funext a; apply Fin.ext
    match a with
    | ⟨0, _⟩ => show win1_5.index t (0 : Fin 2) * 5000 + 1 * p.val = win1_5.index t (0 : Fin 2) * 5000 + p.val; omega
    | ⟨1, _⟩ => show win1_5.index t (1 : Fin 2) * 16 + 1 * q.val = q.val; omega
  -- each input block, read at the places the payload reads it
  have h0 : ∀ k : Fin 16, iblk1 V c 0 t (ValueIdx.ix2 p k)
      = V c main_v25 (ValueIdx.ix2 (⟨win1_5.index t (0 : Fin 2) * 5000 + p.val, hr⟩ : Fin 100000) k) := fun k => by
    show V c main_v25 (((cfg1.win 0).blk t).view.emb (ValueIdx.ix2 p k)) = _
    refine congrArg _ (funext fun a => Fin.ext ?_)
    match a with
    | ⟨0, _⟩ => show win1_0.index t (0 : Fin 2) * 5000 + 1 * p.val = win1_5.index t (0 : Fin 2) * 5000 + p.val; omega
    | ⟨1, _⟩ => show win1_0.index t (1 : Fin 2) * 16 + 1 * k.val = k.val; omega
  have h1 : ∀ k : Fin 16, iblk1 V c 1 t (ValueIdx.ix2 p k)
      = V c main_v15 (ValueIdx.ix2 (⟨win1_5.index t (0 : Fin 2) * 5000 + p.val, hr⟩ : Fin 100000) k) := fun k => by
    show V c main_v15 (((cfg1.win 1).blk t).view.emb (ValueIdx.ix2 p k)) = _
    refine congrArg _ (funext fun a => Fin.ext ?_)
    match a with
    | ⟨0, _⟩ => show win1_1.index t (0 : Fin 2) * 5000 + 1 * p.val = win1_5.index t (0 : Fin 2) * 5000 + p.val; omega
    | ⟨1, _⟩ => show win1_1.index t (1 : Fin 2) * 16 + 1 * k.val = k.val; omega
  have h2 : ∀ k : Fin 16, iblk1 V c 2 t (ValueIdx.ix2 k q) = V c main_arg5 (ValueIdx.ix2 k q) := fun k => by
    show V c main_arg5 (((cfg1.win 2).blk t).view.emb (ValueIdx.ix2 k q)) = _
    refine congrArg _ (funext fun a => Fin.ext ?_)
    match a with
    | ⟨0, _⟩ => show win1_2.index t (0 : Fin 2) * 16 + 1 * k.val = k.val; omega
    | ⟨1, _⟩ => show win1_2.index t (1 : Fin 2) * 16 + 1 * q.val = q.val; omega
  have h3 : ∀ k : Fin 16, iblk1 V c 3 t (ValueIdx.ix2 k q) = V c main_arg6 (ValueIdx.ix2 k q) := fun k => by
    show V c main_arg6 (((cfg1.win 3).blk t).view.emb (ValueIdx.ix2 k q)) = _
    refine congrArg _ (funext fun a => Fin.ext ?_)
    match a with
    | ⟨0, _⟩ => show win1_3.index t (0 : Fin 2) * 16 + 1 * k.val = k.val; omega
    | ⟨1, _⟩ => show win1_3.index t (1 : Fin 2) * 16 + 1 * q.val = q.val; omega
  have h4 : iblk1 V c 4 t (ValueIdx.ix2 (0 : Fin 1) q) = V c main_v26 (ValueIdx.ix2 (0 : Fin 1) q) := by
    show V c main_v26 (((cfg1.win 4).blk t).view.emb (ValueIdx.ix2 (0 : Fin 1) q)) = _
    refine congrArg _ (funext fun a => Fin.ext ?_)
    match a with
    | ⟨0, _⟩ => show win1_4.index t (0 : Fin 2) * 1 + 1 * 0 = 0; omega
    | ⟨1, _⟩ => show win1_4.index t (1 : Fin 2) * 16 + 1 * q.val = q.val; omega
  refine (payload_apply (iblk1 V c 0 t) (iblk1 V c 1 t) (iblk1 V c 2 t) (iblk1 V c 3 t) (iblk1 V c 4 t) p q).trans ?_
  rw [View.read_apply, hemb, lin2_apply, h4]
  simp only [h0, h1, h2, h3]
  exact add_right_comm _ _ _

/-- An index of the output array is in point t's block exactly when each coordinate is in the block's range on its axis. -/
theorem mem_blk (t : Fin cfg1.N) (i : Cert.KernelIdeal.S100000x16.Idx) :
    i ∈ ((cfg1.win 5).blk t).view.set ↔ ∀ a : Fin 2, win1_5.index t a * Cert.KernelIdeal.S5000x16.size a ≤ (i a).val
      ∧ (i a).val < win1_5.index t a * Cert.KernelIdeal.S5000x16.size a + Cert.KernelIdeal.S5000x16.size a := by
  show i ∈ ((View.whole main_v27).slice (win1_5.rect t)).set ↔ _
  rw [View.set_slice_whole, Rect.mem_set_unit]
  exact Iff.rfl

/-- Every index of the output array is in some point's block: row r lies in row block r / 5000, and the one column
    block holds all 16 columns. -/
theorem cover (i : Cert.KernelIdeal.S100000x16.Idx) :
    ∃ t : Fin cfg1.N, (cfg1.win 5).flush t = true ∧ i ∈ ((cfg1.win 5).blk t).view.set := by
  have hi0 : (i 0).val < 100000 := (i 0).isLt
  have hi1 : (i 1).val < 16 := (i 1).isLt
  obtain ⟨t, ht⟩ := blockOnto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 16 ≤ (i 1).val ∧ (i 1).val < win1_5.index t (1 : Fin 2) * 16 + 16; omega

/-- After the second region, run from buffer contents V, its output array holds the second layer's affine map of the
    region's five input arrays: the neighbour sums, the hidden features, the two 16 × 16 weight matrices and the
    bias row. -/
theorem region_out (V : (c : Dev nD) → (b : Ref sig .tc) → Buf (Elt Ideal) ((c : Thread nD τ).loc b)) (c : Dev nD) :
    (dat1 (F := Ideal) V c).arrAt 5 cfg1.N
      = lin2 (V c main_v25) (V c main_v15) (V c main_arg5) (V c main_arg6) (V c main_v26) := by
  exact (dat1 (F := Ideal) V c).arrAt_eq_of_cover 5
    (lin2 (V c main_v25) (V c main_v15) (V c main_arg5) (V c main_arg6) (V c main_v26))
    (fun t _ => flushed_eq V c t) cover

end Cert.GraphNet.Layer1

end
-- ==== Proof.Layer2.lean ====
/-
  The third region's output array.

  The region runs over 20 blocks of 5000 rows.  At each block its body stores
      max ((a · W_rel + z · W_root) + b, 0)
  where a is the block of the neighbour sums, z the same block of the hidden features, W_rel and W_root the two
  16 × 1 weight columns and b the 1 × 1 bias spread along the rows.  On the extended reals every change of format
  is the identity and a product accumulated into zero is the plain sum over the sixteen features.  The layer of the
  specification is, on all 100000 rows at once,
      max ((A · W_rel + b) + Z · W_root, 0):
  the same three terms, the bias added before the second product instead of after it.  Addition of extended reals
  is commutative and associative, so the two agree entry by entry and no finiteness of the inputs is needed.  Row r
  of an array lies in block r / 5000, at row r mod 5000 of it; the twenty blocks cover the array, so after the last
  block the array holds the layer's value.
-/
import proofs.«125403_j2929167695879_1_alg».proof.Proof.Gen.KernelIdeal.Frame
import proofs.«125403_j2929167695879_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GraphNet.Layer2

open Cert.KernelIdeal Cert.KernelIdeal.Gen Cert.GraphNet Idealize.ShloMosaic Idealize.ShloMosaic.TcCoe Idealize.SL.Sem
open Idealize.ShloMosaic.Pipeline (Dat)

/-! ## The two products as sums over the sixteen features -/

/-- In the block's product 5000 × 16 by 16 × 1, the left operand's row is the result's row. -/
theorem klhs_0 (i : S5000x1.Idx) (q : dot_S5000x16_S16x1_S5000x1_1_0_0_1_n_n.contr.Idx) :
    (dot_S5000x16_S16x1_S5000x1_1_0_0_1_n_n.lhsIdx i q 0).val = (i 0).val := by
  unfold DotDims.lhsIdx
  rw [dif_neg (show ¬(0 : Fin S5000x16.rank) ∈ dot_S5000x16_S16x1_S5000x1_1_0_0_1_n_n.lhsBatch by decide), dif_pos (show (0 : Fin S5000x16.rank) ∈ dot_S5000x16_S16x1_S5000x1_1_0_0_1_n_n.lhsNonContracting by decide)]
  rfl
/-- The left operand's column is the summation index. -/
theorem klhs_1 (i : S5000x1.Idx) (q : dot_S5000x16_S16x1_S5000x1_1_0_0_1_n_n.contr.Idx) :
    (dot_S5000x16_S16x1_S5000x1_1_0_0_1_n_n.lhsIdx i q 1).val = (q ⟨0, by decide⟩).val :=
  dot_S5000x16_S16x1_S5000x1_1_0_0_1_n_n.lhsIdx_val_of_single rfl i q
/-- The right operand's row is the summation index. -/
theorem krhs_0 (i : S5000x1.Idx) (q : dot_S5000x16_S16x1_S5000x1_1_0_0_1_n_n.contr.Idx) :
    (dot_S5000x16_S16x1_S5000x1_1_0_0_1_n_n.rhsIdx i q 0).val = (q ⟨0, by decide⟩).val :=
  dot_S5000x16_S16x1_S5000x1_1_0_0_1_n_n.rhsIdx_val_of_single rfl i q
/-- The right operand's column is the result's column. -/
theorem krhs_1 (i : S5000x1.Idx) (q : dot_S5000x16_S16x1_S5000x1_1_0_0_1_n_n.contr.Idx) :
    (dot_S5000x16_S16x1_S5000x1_1_0_0_1_n_n.rhsIdx i q 1).val = (i 1).val := by
  unfold DotDims.rhsIdx
  rw [dif_neg (show ¬(1 : Fin S16x1.rank) ∈ dot_S5000x16_S16x1_S5000x1_1_0_0_1_n_n.rhsBatch by decide), dif_pos (show (1 : Fin S16x1.rank) ∈ dot_S5000x16_S16x1_S5000x1_1_0_0_1_n_n.rhsNonContracting by decide)]
  rfl

/-- A block's product accumulated into zero, at row p and column q: the sum over the sixteen features k of
    x(p, k) · w(k, q). -/
theorem kdot_apply {φ₁ φ₂ : FTy} (x : FVec Ideal S5000x16 φ₁) (w : FVec Ideal S16x1 φ₂) (p : Fin 5000) (q : Fin 1) :
    matmul (F := Ideal) dot_S5000x16_S16x1_S5000x1_1_0_0_1_n_n none x w (constant (F := Ideal) S5000x1 .f32 0x00000000#32) (ValueIdx.ix2 p q)
      = ∑ k : Fin 16, x (ValueIdx.ix2 p k) * w (ValueIdx.ix2 k q) := by
  simp only [matmul]
  rw [Ideal.matmul_constant_zero_apply, ← Equiv.sum_comp (ValueIdx.contrEquiv1 dot_S5000x16_S16x1_S5000x1_1_0_0_1_n_n 16 rfl rfl).symm]
  refine Finset.sum_congr rfl fun k _ => ?_
  have hk := ValueIdx.contrEquiv1_symm_val dot_S5000x16_S16x1_S5000x1_1_0_0_1_n_n 16 rfl rfl k
  have el : dot_S5000x16_S16x1_S5000x1_1_0_0_1_n_n.lhsIdx (ValueIdx.ix2 p q) ((ValueIdx.contrEquiv1 dot_S5000x16_S16x1_S5000x1_1_0_0_1_n_n 16 rfl rfl).symm k) = ValueIdx.ix2 p k := funext fun a => Fin.ext (by
    match a with
    | ⟨0, _⟩ => exact klhs_0 _ _
    | ⟨1, _⟩ => exact (klhs_1 _ _).trans hk)
  have er : dot_S5000x16_S16x1_S5000x1_1_0_0_1_n_n.rhsIdx (ValueIdx.ix2 p q) ((ValueIdx.contrEquiv1 dot_S5000x16_S16x1_S5000x1_1_0_0_1_n_n 16 rfl rfl).symm k) = ValueIdx.ix2 k q := funext fun a => Fin.ext (by
    match a with
    | ⟨0, _⟩ => exact (krhs_0 _ _).trans hk
    | ⟨1, _⟩ => exact krhs_1 _ _)
  rw [el, er]

/-- In the whole-array product 100000 × 16 by 16 × 1, the left operand's row is the result's row. -/
theorem rlhs_0 (i : Cert.ReferenceIdeal.S100000x1.Idx) (q : Cert.ReferenceIdeal.dot_S100000x16_S16x1_S100000x1_1_0_0_1_n_n.contr.Idx) :
    (Cert.ReferenceIdeal.dot_S100000x16_S16x1_S100000x1_1_0_0_1_n_n.lhsIdx i q 0).val = (i 0).val := by
  unfold DotDims.lhsIdx
  rw [dif_neg (show ¬(0 : Fin Cert.ReferenceIdeal.S100000x16.rank) ∈ Cert.ReferenceIdeal.dot_S100000x16_S16x1_S100000x1_1_0_0_1_n_n.lhsBatch by decide), dif_pos (show (0 : Fin Cert.ReferenceIdeal.S100000x16.rank) ∈ Cert.ReferenceIdeal.dot_S100000x16_S16x1_S100000x1_1_0_0_1_n_n.lhsNonContracting by decide)]
  rfl
/-- The left operand's column is the summation index. -/
theorem rlhs_1 (i : Cert.ReferenceIdeal.S100000x1.Idx) (q : Cert.ReferenceIdeal.dot_S100000x16_S16x1_S100000x1_1_0_0_1_n_n.contr.Idx) :
    (Cert.ReferenceIdeal.dot_S100000x16_S16x1_S100000x1_1_0_0_1_n_n.lhsIdx i q 1).val = (q ⟨0, by decide⟩).val :=
  Cert.ReferenceIdeal.dot_S100000x16_S16x1_S100000x1_1_0_0_1_n_n.lhsIdx_val_of_single rfl i q
/-- The right operand's row is the summation index. -/
theorem rrhs_0 (i : Cert.ReferenceIdeal.S100000x1.Idx) (q : Cert.ReferenceIdeal.dot_S100000x16_S16x1_S100000x1_1_0_0_1_n_n.contr.Idx) :
    (Cert.ReferenceIdeal.dot_S100000x16_S16x1_S100000x1_1_0_0_1_n_n.rhsIdx i q 0).val = (q ⟨0, by decide⟩).val :=
  Cert.ReferenceIdeal.dot_S100000x16_S16x1_S100000x1_1_0_0_1_n_n.rhsIdx_val_of_single rfl i q
/-- The right operand's column is the result's column. -/
theorem rrhs_1 (i : Cert.ReferenceIdeal.S100000x1.Idx) (q : Cert.ReferenceIdeal.dot_S100000x16_S16x1_S100000x1_1_0_0_1_n_n.contr.Idx) :
    (Cert.ReferenceIdeal.dot_S100000x16_S16x1_S100000x1_1_0_0_1_n_n.rhsIdx i q 1).val = (i 1).val := by
  unfold DotDims.rhsIdx
  rw [dif_neg (show ¬(1 : Fin Cert.ReferenceIdeal.S16x1.rank) ∈ Cert.ReferenceIdeal.dot_S100000x16_S16x1_S100000x1_1_0_0_1_n_n.rhsBatch by decide), dif_pos (show (1 : Fin Cert.ReferenceIdeal.S16x1.rank) ∈ Cert.ReferenceIdeal.dot_S100000x16_S16x1_S100000x1_1_0_0_1_n_n.rhsNonContracting by decide)]
  rfl

/-- The whole-array product of any two operands, at row r and column q: the sum over the sixteen features k of
    x(r, k) · w(k, q). -/
theorem rdot_apply (x : FVec Ideal Cert.ReferenceIdeal.S100000x16 .f32) (w : FVec Ideal Cert.ReferenceIdeal.S16x1 .f32) (r : Fin 100000) (q : Fin 1) :
    Host.dotGeneral (F := Ideal) Cert.ReferenceIdeal.dot_S100000x16_S16x1_S100000x1_1_0_0_1_n_n none x w (ValueIdx.ix2 r q)
      = ∑ k : Fin 16, x (ValueIdx.ix2 r k) * w (ValueIdx.ix2 k q) := by
  simp only [Host.dotGeneral]
  rw [Ideal.dotGeneral_apply, ← Equiv.sum_comp (ValueIdx.contrEquiv1 Cert.ReferenceIdeal.dot_S100000x16_S16x1_S100000x1_1_0_0_1_n_n 16 rfl rfl).symm]
  refine Finset.sum_congr rfl fun k _ => ?_
  have hk := ValueIdx.contrEquiv1_symm_val Cert.ReferenceIdeal.dot_S100000x16_S16x1_S100000x1_1_0_0_1_n_n 16 rfl rfl k
  have el : Cert.ReferenceIdeal.dot_S100000x16_S16x1_S100000x1_1_0_0_1_n_n.lhsIdx (ValueIdx.ix2 r q) ((ValueIdx.contrEquiv1 Cert.ReferenceIdeal.dot_S100000x16_S16x1_S100000x1_1_0_0_1_n_n 16 rfl rfl).symm k) = ValueIdx.ix2 r k := funext fun a => Fin.ext (by
    match a with
    | ⟨0, _⟩ => exact rlhs_0 _ _
    | ⟨1, _⟩ => exact (rlhs_1 _ _).trans hk)
  have er : Cert.ReferenceIdeal.dot_S100000x16_S16x1_S100000x1_1_0_0_1_n_n.rhsIdx (ValueIdx.ix2 r q) ((ValueIdx.contrEquiv1 Cert.ReferenceIdeal.dot_S100000x16_S16x1_S100000x1_1_0_0_1_n_n 16 rfl rfl).symm k) = ValueIdx.ix2 k q := funext fun a => Fin.ext (by
    match a with
    | ⟨0, _⟩ => exact (rrhs_0 _ _).trans hk
    | ⟨1, _⟩ => exact rrhs_1 _ _)
  rw [el, er]

/-! ## The body's payload and the layer, read at one entry -/

/-- The 1 × 1 bias spread over 5000 rows reads its one entry everywhere. -/
theorem bias_bcast_apply (b : FVec Ideal S1x1 .f32) (p : Fin 5000) (q : Fin 1) :
    broadcastTo S5000x1 b broadcasts_S1x1_S5000x1 (ValueIdx.ix2 p q) = b (ValueIdx.ix2 (0 : Fin 1) (0 : Fin 1)) :=
  broadcastTo_apply b broadcasts_S1x1_S5000x1 (ValueIdx.ix2 p q) (ValueIdx.ix2 (0 : Fin 1) (0 : Fin 1)) (fun a => match a with
    | ⟨0, _⟩ => by show (0 : Nat) = if (1 : Nat) = 1 then 0 else _; rw [if_pos rfl]
    | ⟨1, _⟩ => by show (0 : Nat) = if (1 : Nat) = 1 then 0 else _; rw [if_pos rfl])

/-- The value the body stores, at row p and column q of the block: the positive part of the two sums over the
    sixteen features, added, plus the bias. -/
theorem pay_apply (x0 x1 : Vec Ideal S5000x16 .f32) (x2 x3 : Vec Ideal S16x1 .f32) (x4 : Vec Ideal S1x1 .f32) (p : Fin 5000) (q : Fin 1) :
    k2_pay1 (F := Ideal) x0 x1 x2 x3 x4 (ValueIdx.ix2 p q)
      = max (((∑ k : Fin 16, x0 (ValueIdx.ix2 p k) * x2 (ValueIdx.ix2 k q)) + (∑ k : Fin 16, x1 (ValueIdx.ix2 p k) * x3 (ValueIdx.ix2 k q)))
          + x4 (ValueIdx.ix2 (0 : Fin 1) (0 : Fin 1))) 0 := by
  unfold k2_pay1
  simp only [shapeCast_self]
  show max ((matmul (F := Ideal) dot_S5000x16_S16x1_S5000x1_1_0_0_1_n_n none (truncf (F := Ideal) .bf16 x0 bitsLt_bf16_f32) (truncf (F := Ideal) .bf16 x2 bitsLt_bf16_f32) (constant (F := Ideal) S5000x1 .f32 0x00000000#32) (ValueIdx.ix2 p q)
      + matmul (F := Ideal) dot_S5000x16_S16x1_S5000x1_1_0_0_1_n_n none (truncf (F := Ideal) .bf16 x1 bitsLt_bf16_f32) (truncf (F := Ideal) .bf16 x3 bitsLt_bf16_f32) (constant (F := Ideal) S5000x1 .f32 0x00000000#32) (ValueIdx.ix2 p q))
      + broadcastTo S5000x1 x4 broadcasts_S1x1_S5000x1 (ValueIdx.ix2 p q)) (Ideal.ofBits .f32 0x00000000#32) = _
  rw [kdot_apply, kdot_apply, bias_bcast_apply, Ideal.ofBits_zero_f32]
  rfl

/-- The layer of the specification, at row r and column q: the positive part of the first sum plus the bias, plus
    the second sum. -/
theorem layer_apply (A Z : FVec Ideal Cert.ReferenceIdeal.S100000x16 .f32) (Wr Wo : FVec Ideal Cert.ReferenceIdeal.S16x1 .f32)
    (B : FVec Ideal Cert.ReferenceIdeal.S1x1 .f32) (r : Fin 100000) (q : Fin 1) :
    relu1 (F := Ideal) (lin3 (F := Ideal) A Z Wr Wo B) (ValueIdx.ix2 r q)
      = max (((∑ k : Fin 16, A (ValueIdx.ix2 r k) * Wr (ValueIdx.ix2 k q)) + B (ValueIdx.ix2 (0 : Fin 1) (0 : Fin 1)))
          + ∑ k : Fin 16, Z (ValueIdx.ix2 r k) * Wo (ValueIdx.ix2 k q)) 0 := by
  unfold relu1 lin3
  show max ((Host.dotGeneral (F := Ideal) Cert.ReferenceIdeal.dot_S100000x16_S16x1_S100000x1_1_0_0_1_n_n none A Wr (ValueIdx.ix2 r q)
        + broadcastInDim Cert.ReferenceIdeal.S100000x1 ![0, 1] Cert.ReferenceIdeal.Facts₀.bcast_S1x1_S100000x1_0_1 B (ValueIdx.ix2 r q))
      + Host.dotGeneral (F := Ideal) Cert.ReferenceIdeal.dot_S100000x16_S16x1_S100000x1_1_0_0_1_n_n none Z Wo (ValueIdx.ix2 r q))
      (broadcastInDim Cert.ReferenceIdeal.S100000x1 ![] Cert.ReferenceIdeal.Facts₀.bcast_S_S100000x1 (constant (F := Ideal) Cert.ReferenceIdeal.S_ .f32 0x00000000#32) (ValueIdx.ix2 r q)) = _
  have hb : broadcastInDim Cert.ReferenceIdeal.S100000x1 ![0, 1] Cert.ReferenceIdeal.Facts₀.bcast_S1x1_S100000x1_0_1 B (ValueIdx.ix2 r q)
      = B (ValueIdx.ix2 (0 : Fin 1) (0 : Fin 1)) :=
    broadcastInDim_apply _ Cert.ReferenceIdeal.Facts₀.bcast_S1x1_S100000x1_0_1 B (ValueIdx.ix2 r q) (ValueIdx.ix2 (0 : Fin 1) (0 : Fin 1)) (fun a => match a with
      | ⟨0, _⟩ => by show (0 : Nat) = if (1 : Nat) = 1 then 0 else _; rw [if_pos rfl]
      | ⟨1, _⟩ => by show (0 : Nat) = if (1 : Nat) = 1 then 0 else _; rw [if_pos rfl])
  have hzero : broadcastInDim Cert.ReferenceIdeal.S100000x1 ![] Cert.ReferenceIdeal.Facts₀.bcast_S_S100000x1 (constant (F := Ideal) Cert.ReferenceIdeal.S_ .f32 0x00000000#32) (ValueIdx.ix2 r q)
      = (0 : EReal) :=
    (broadcastInDim_apply _ Cert.ReferenceIdeal.Facts₀.bcast_S_S100000x1 (constant (F := Ideal) Cert.ReferenceIdeal.S_ .f32 0x00000000#32) (ValueIdx.ix2 r q) ValueIdx.ix0 (fun a => a.elim0)).trans
      Ideal.ofBits_zero_f32
  rw [rdot_apply, rdot_apply, hb, hzero]

/-! ## The blocks: where each window's block sits in its array -/

/-- The zero offsets of a whole-buffer access, as the constant function. -/
theorem hz : (![0, 0] : Fin 2 → Nat) = fun _ => 0 := funext fun a => by fin_cases a <;> rfl

/-- At every one of the twenty points: the blocks of the neighbour sums and of the features sit at the output's row
    block and column block 0, the two weight columns and the bias at block (0, 0), and the output's row block is at
    most 19, its column block 0. -/
theorem idx_facts : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 19 ∧ win2_5.index t (1 : Fin 2) = 0 :=
  (by decide +kernel : ∀ t : Fin grid2.N, _)

/-- Every row block 0 … 19 is some point's. -/
theorem idx_onto : ∀ q0 : Fin 20, ∃ t : Fin cfg2.N, win2_5.index t = ![q0.val, 0] :=
  (by decide +kernel : ∀ q0 : Fin 20, ∃ t : Fin grid2.N, win2_5.index t = ![q0.val, 0])

section Reads
variable (V : (c : Dev nD) → (b : Ref sig .tc) → Buf (Elt Ideal) ((c : Thread nD τ).loc b)) (c : Dev nD) (t : Fin cfg2.N)

/-- Row p, column k of the neighbour sums' block at point t is row r, column k of the array, r being 5000 times the
    point's row block plus p. -/
theorem read_sums (p : Fin 5000) (k : Fin 16) (r : Fin 100000) (hr : r.val = win2_5.index t (0 : Fin 2) * 5000 + p.val) :
    iblk2 V c 0 t (ValueIdx.ix2 p k) = V c main_v37 (ValueIdx.ix2 r k) := by
  obtain ⟨e0, e1, -⟩ := idx_facts t
  show V c main_v37 (((cfg2.win 0).blk t).view.emb (ValueIdx.ix2 p k)) = V c main_v37 (ValueIdx.ix2 r k)
  refine congrArg (V c main_v37) (funext fun a => Fin.ext ?_)
  match a with
  | ⟨0, _⟩ => show win2_0.index t (0 : Fin 2) * 5000 + 1 * p.val = r.val; omega
  | ⟨1, _⟩ => show win2_0.index t (1 : Fin 2) * 16 + 1 * k.val = k.val; omega

/-- The same for the features' block. -/
theorem read_feats (p : Fin 5000) (k : Fin 16) (r : Fin 100000) (hr : r.val = win2_5.index t (0 : Fin 2) * 5000 + p.val) :
    iblk2 V c 1 t (ValueIdx.ix2 p k) = V c main_v27 (ValueIdx.ix2 r k) := by
  obtain ⟨-, -, e0, e1, -⟩ := idx_facts t
  show V c main_v27 (((cfg2.win 1).blk t).view.emb (ValueIdx.ix2 p k)) = V c main_v27 (ValueIdx.ix2 r k)
  refine congrArg (V c main_v27) (funext fun a => Fin.ext ?_)
  match a with
  | ⟨0, _⟩ => show win2_1.index t (0 : Fin 2) * 5000 + 1 * p.val = r.val; omega
  | ⟨1, _⟩ => show win2_1.index t (1 : Fin 2) * 16 + 1 * k.val = k.val; omega

/-- The first weight column's block is the whole column at every point. -/
theorem read_wrel (k : Fin 16) (q : Fin 1) :
    iblk2 V c 2 t (ValueIdx.ix2 k q) = V c main_arg8 (ValueIdx.ix2 k q) := by
  obtain ⟨-, -, -, -, e0, e1, -⟩ := idx_facts t
  show V c main_arg8 (((cfg2.win 2).blk t).view.emb (ValueIdx.ix2 k q)) = V c main_arg8 (ValueIdx.ix2 k q)
  refine congrArg (V c main_arg8) (funext fun a => Fin.ext ?_)
  match a with
  | ⟨0, _⟩ => show win2_2.index t (0 : Fin 2) * 16 + 1 * k.val = k.val; omega
  | ⟨1, _⟩ => show win2_2.index t (1 : Fin 2) * 1 + 1 * q.val = q.val; omega

/-- The second weight column's block is the whole column at every point. -/
theorem read_wroot (k : Fin 16) (q : Fin 1) :
    iblk2 V c 3 t (ValueIdx.ix2 k q) = V c main_arg9 (ValueIdx.ix2 k q) := by
  obtain ⟨-, -, -, -, -, -, e0, e1, -⟩ := idx_facts t
  show V c main_arg9 (((cfg2.win 3).blk t).view.emb (ValueIdx.ix2 k q)) = V c main_arg9 (ValueIdx.ix2 k q)
  refine congrArg (V c main_arg9) (funext fun a => Fin.ext ?_)
  match a with
  | ⟨0, _⟩ => show win2_3.index t (0 : Fin 2) * 16 + 1 * k.val = k.val; omega
  | ⟨1, _⟩ => show win2_3.index t (1 : Fin 2) * 1 + 1 * q.val = q.val; omega

/-- The bias's block is the whole 1 × 1 array at every point. -/
theorem read_bias (u v : Fin 1) :
    iblk2 V c 4 t (ValueIdx.ix2 u v) = V c main_v38 (ValueIdx.ix2 u v) := by
  obtain ⟨-, -, -, -, -, -, -, -, e0, e1, -⟩ := idx_facts t
  show V c main_v38 (((cfg2.win 4).blk t).view.emb (ValueIdx.ix2 u v)) = V c main_v38 (ValueIdx.ix2 u v)
  refine congrArg (V c main_v38) (funext fun a => Fin.ext ?_)
  match a with
  | ⟨0, _⟩ => show win2_4.index t (0 : Fin 2) * 1 + 1 * u.val = u.val; omega
  | ⟨1, _⟩ => show win2_4.index t (1 : Fin 2) * 1 + 1 * v.val = v.val; omega

/-- Row p, column q of the output's block at point t, read off any whole-array function G, is G at row r, column q,
    r being 5000 times the point's row block plus p. -/
theorem read_out (G : S100000x1.Idx → EReal) (p : Fin 5000) (q : Fin 1) (r : Fin 100000)
    (hr : r.val = win2_5.index t (0 : Fin 2) * 5000 + p.val) :
    ((cfg2.win 5).blk t).view.read (Elt Ideal) G (ValueIdx.ix2 p q) = G (ValueIdx.ix2 r q) := by
  obtain ⟨-, -, -, -, -, -, -, -, -, -, -, e1⟩ := idx_facts t
  show G (((cfg2.win 5).blk t).view.emb (ValueIdx.ix2 p q)) = G (ValueIdx.ix2 r q)
  refine congrArg G (funext fun a => Fin.ext ?_)
  match a with
  | ⟨0, _⟩ => show win2_5.index t (0 : Fin 2) * 5000 + 1 * p.val = r.val; omega
  | ⟨1, _⟩ => show win2_5.index t (1 : Fin 2) * 1 + 1 * q.val = q.val; omega

end Reads

/-! ## What a point writes back, the cover, and the array after the region -/

/-- What point t writes back is its block of the layer's value on the region's five input arrays: entry by entry the
    two sides are the same three terms, added in two orders. -/
theorem flushed_eq (V : (c : Dev nD) → (b : Ref sig .tc) → Buf (Elt Ideal) ((c : Thread nD τ).loc b)) (c : Dev nD) (t : Fin cfg2.N) :
    (dat2 (F := Ideal) V c).flushed 5 t = ((cfg2.win 5).blk t).view.read (Elt Ideal)
      (relu1 (lin3 (V c main_v37) (V c main_v27) (V c main_arg8) (V c main_arg9) (V c main_v38))) := by
  show (cfg2.win 5).cut (grid2.coords t) ((dat2 V c).after 5 t) = _
  rw [after2_5]
  unfold out2_5
  rw [View.canon_unit_zero hz]
  simp only [View.ld_unit_zero (S := S5000x16) hz, View.ld_unit_zero (S := S16x1) hz, View.ld_unit_zero (S := S1x1) hz]
  funext j
  obtain ⟨p, q, rfl⟩ : ∃ (p : Fin 5000) (q : Fin 1), j = ValueIdx.ix2 p q := ⟨j 0, j 1, ValueIdx.eq_ix2 j⟩
  have hlt : win2_5.index t (0 : Fin 2) * 5000 + p.val < 100000 := by
    have := (idx_facts t).2.2.2.2.2.2.2.2.2.2.1
    have := p.isLt
    omega
  refine (pay_apply (iblk2 V c 0 t) (iblk2 V c 1 t) (iblk2 V c 2 t) (iblk2 V c 3 t) (iblk2 V c 4 t) p q).trans ?_
  rw [read_out t _ p q ⟨win2_5.index t (0 : Fin 2) * 5000 + p.val, hlt⟩ rfl,
    layer_apply (V c main_v37) (V c main_v27) (V c main_arg8) (V c main_arg9) (V c main_v38) ⟨win2_5.index t (0 : Fin 2) * 5000 + p.val, hlt⟩ q,
    read_bias V c t 0 0]
  simp only [read_sums V c t p _ ⟨win2_5.index t (0 : Fin 2) * 5000 + p.val, hlt⟩ rfl,
    read_feats V c t p _ ⟨win2_5.index t (0 : Fin 2) * 5000 + p.val, hlt⟩ rfl, read_wrel V c t, read_wroot V c t]
  rw [add_right_comm]

/-- An index of the output array is in point t's block iff each coordinate lies in the block's range on its axis. -/
theorem mem_blk (t : Fin cfg2.N) (i : S100000x1.Idx) :
    i ∈ ((cfg2.win 5).blk t).view.set ↔ ∀ a : Fin 2, win2_5.index t a * S5000x1.size a ≤ (i a).val ∧ (i a).val < win2_5.index t a * S5000x1.size a + S5000x1.size a := by
  show i ∈ ((View.whole main_v39).slice (win2_5.rect t)).set ↔ _
  rw [View.set_slice_whole, Rect.mem_set_unit]
  exact Iff.rfl

/-- Every index of the output array is in some point's block, and every point writes its block back: row r lies in
    row block r / 5000. -/
theorem covered (i : S100000x1.Idx) :
    ∃ t : Fin cfg2.N, (cfg2.win 5).flush t = true ∧ i ∈ ((cfg2.win 5).blk t).view.set := by
  have hi0 : (i 0).val < 100000 := (i 0).isLt
  have hi1 : (i 1).val < 1 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 1 ≤ (i 1).val ∧ (i 1).val < win2_5.index t (1 : Fin 2) * 1 + 1; omega

/-- After the third region, run from buffer contents V, its output array holds the positive part of the third
    layer's affine map of the region's five input arrays: the neighbour sums, the hidden features, the two 16 × 1
    weight columns and the 1 × 1 bias. -/
theorem region_out (V : (c : Dev nD) → (b : Ref sig .tc) → Buf (Elt Ideal) ((c : Thread nD τ).loc b)) (c : Dev nD) :
    (dat2 (F := Ideal) V c).arrAt 5 cfg2.N
      = relu1 (lin3 (V c main_v37) (V c main_v27) (V c main_arg8) (V c main_arg9) (V c main_v38)) :=
  (dat2 (F := Ideal) V c).arrAt_eq_of_cover 5 _ (fun t _ => flushed_eq V c t) covered

end Cert.GraphNet.Layer2

end
-- ==== Proof.Fold.lean ====
/-
  The kernel program's result, as its run leaves it, is the three-layer network of Spec.lean at the launch
  arguments.  The run alternates three host stretches (each gathers the current features along the edges and sums
  them into their destination nodes) with three regions (each applies one layer's affine map block by block); the
  buffer contents at the six boundaries are followed from the launch memory to the result, one boundary at a time:
  a stretch by Stretch.lean's reading of it, a region by its layer's lemma, and a buffer that a region does not own
  is as the region found it.
-/
import proofs.«125403_j2929167695879_1_alg».proof.Proof.Gen.KernelIdeal.Frame
import proofs.«125403_j2929167695879_1_alg».proof.Proof.Spec
import proofs.«125403_j2929167695879_1_alg».proof.Proof.Stretch
import proofs.«125403_j2929167695879_1_alg».proof.Proof.Layer0
import proofs.«125403_j2929167695879_1_alg».proof.Proof.Layer1
import proofs.«125403_j2929167695879_1_alg».proof.Proof.Layer2

set_option maxRecDepth 16384

noncomputable section

namespace Cert.GraphNet.Fold

open Cert.KernelIdeal Cert.KernelIdeal.Gen Cert.GraphNet Cert.GraphNet.Stretch Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## Boundary 1: after the first stretch, from the launch memory -/

theorem W1_arg0 : W1 m ρ c (Proc.devRef .tc main_arg0) = m ((c : Thread nD τ).loc main_arg0) :=
  s0_keep_arg0 (W0 m ρ c)
theorem W1_arg2 : W1 m ρ c (Proc.devRef .tc main_arg2) = m ((c : Thread nD τ).loc main_arg2) :=
  s0_keep_arg2 (W0 m ρ c)
theorem W1_arg3 : W1 m ρ c (Proc.devRef .tc main_arg3) = m ((c : Thread nD τ).loc main_arg3) :=
  s0_keep_arg3 (W0 m ρ c)
theorem W1_arg5 : W1 m ρ c (Proc.devRef .tc main_arg5) = m ((c : Thread nD τ).loc main_arg5) :=
  s0_keep_arg5 (W0 m ρ c)
theorem W1_arg6 : W1 m ρ c (Proc.devRef .tc main_arg6) = m ((c : Thread nD τ).loc main_arg6) :=
  s0_keep_arg6 (W0 m ρ c)
theorem W1_arg7 : W1 m ρ c (Proc.devRef .tc main_arg7) = m ((c : Thread nD τ).loc main_arg7) :=
  s0_keep_arg7 (W0 m ρ c)
theorem W1_arg8 : W1 m ρ c (Proc.devRef .tc main_arg8) = m ((c : Thread nD τ).loc main_arg8) :=
  s0_keep_arg8 (W0 m ρ c)
theorem W1_arg9 : W1 m ρ c (Proc.devRef .tc main_arg9) = m ((c : Thread nD τ).loc main_arg9) :=
  s0_keep_arg9 (W0 m ρ c)
theorem W1_arg10 : W1 m ρ c (Proc.devRef .tc main_arg10) = m ((c : Thread nD τ).loc main_arg10) :=
  s0_keep_arg10 (W0 m ρ c)
theorem W1_v1 : W1 m ρ c (Proc.devRef .tc main_v1) = (shapeCast _ (extractStridedSlice S1x3200000 ![0, 0] (m ((c : Thread nD τ).loc main_arg1)) slices_S2x3200000_S1x3200000_0_0) shapeCasts_S1x3200000_S3200000) := s0_v1 (W0 m ρ c)
theorem W1_v3 : W1 m ρ c (Proc.devRef .tc main_v3) = (shapeCast _ (extractStridedSlice S1x3200000 ![1, 0] (m ((c : Thread nD τ).loc main_arg1)) slices_S2x3200000_S1x3200000_1_0) shapeCasts_S1x3200000_S3200000) := s0_v3 (W0 m ρ c)
theorem W1_v13 : W1 m ρ c (Proc.devRef .tc main_v13) = agg1 (m ((c : Thread nD τ).loc main_arg0)) (m ((c : Thread nD τ).loc main_arg1)) := s0_v13 (W0 m ρ c) _ _ rfl rfl
theorem W1_v14 : W1 m ρ c (Proc.devRef .tc main_v14) = row16 (m ((c : Thread nD τ).loc main_arg4)) := s0_v14 (W0 m ρ c)

/-! ## Boundary 2: after the first region -/

/-- The first region leaves the hidden features of the first layer. -/
theorem W2_v15 : W2 m ρ c (Proc.devRef .tc main_v15) = (hid1 (m ((c : Thread nD τ).loc main_arg0)) (m ((c : Thread nD τ).loc main_arg1)) (m ((c : Thread nD τ).loc main_arg2)) (m ((c : Thread nD τ).loc main_arg3)) (m ((c : Thread nD τ).loc main_arg4))) := by
  refine (W2_arr m ρ c 5).trans ?_
  rw [Layer0.region_out (V1 m ρ) c]
  show relu16 (lin1 (W1 m ρ c (Proc.devRef .tc main_v13)) (W1 m ρ c (Proc.devRef .tc main_arg0)) (W1 m ρ c (Proc.devRef .tc main_arg2))
    (W1 m ρ c (Proc.devRef .tc main_arg3)) (W1 m ρ c (Proc.devRef .tc main_v14))) = _
  rw [W1_v13, W1_arg0, W1_arg2, W1_arg3, W1_v14]
  rfl
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_v1 : W2 m ρ c (Proc.devRef .tc main_v1) = (shapeCast _ (extractStridedSlice S1x3200000 ![0, 0] (m ((c : Thread nD τ).loc main_arg1)) slices_S2x3200000_S1x3200000_0_0) shapeCasts_S1x3200000_S3200000) := (W2_of_ne m ρ c main_v1 (by decide)).trans (W1_v1 m ρ c)
theorem W2_v3 : W2 m ρ c (Proc.devRef .tc main_v3) = (shapeCast _ (extractStridedSlice S1x3200000 ![1, 0] (m ((c : Thread nD τ).loc main_arg1)) slices_S2x3200000_S1x3200000_1_0) shapeCasts_S1x3200000_S3200000) := (W2_of_ne m ρ c main_v3 (by decide)).trans (W1_v3 m ρ c)

/-! ## Boundary 3: after the second stretch -/

theorem W3_v25 : W3 m ρ c (Proc.devRef .tc main_v25) = agg16 (hid1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) :=
  s1_v25 (W2 m ρ c) _ _ (W2_v15 m ρ c) (W2_v1 m ρ c) (W2_v3 m ρ c)
theorem W3_v15 : W3 m ρ c (Proc.devRef .tc main_v15) = (hid1 (m ((c : Thread nD τ).loc main_arg0)) (m ((c : Thread nD τ).loc main_arg1)) (m ((c : Thread nD τ).loc main_arg2)) (m ((c : Thread nD τ).loc main_arg3)) (m ((c : Thread nD τ).loc main_arg4))) := (s1_keep_v15 (W2 m ρ c)).trans (W2_v15 m ρ c)
theorem W3_v26 : W3 m ρ c (Proc.devRef .tc main_v26) = row16 (m ((c : Thread nD τ).loc main_arg7)) :=
  (s1_v26 (W2 m ρ c)).trans (congrArg row16 (W2_arg7 m ρ c))
theorem W3_arg5 : W3 m ρ c (Proc.devRef .tc main_arg5) = m ((c : Thread nD τ).loc main_arg5) :=
  (s1_keep_arg5 (W2 m ρ c)).trans (W2_arg5 m ρ c)
theorem W3_arg6 : W3 m ρ c (Proc.devRef .tc main_arg6) = m ((c : Thread nD τ).loc main_arg6) :=
  (s1_keep_arg6 (W2 m ρ c)).trans (W2_arg6 m ρ c)
theorem W3_arg8 : W3 m ρ c (Proc.devRef .tc main_arg8) = m ((c : Thread nD τ).loc main_arg8) :=
  (s1_keep_arg8 (W2 m ρ c)).trans (W2_arg8 m ρ c)
theorem W3_arg9 : W3 m ρ c (Proc.devRef .tc main_arg9) = m ((c : Thread nD τ).loc main_arg9) :=
  (s1_keep_arg9 (W2 m ρ c)).trans (W2_arg9 m ρ c)
theorem W3_arg10 : W3 m ρ c (Proc.devRef .tc main_arg10) = m ((c : Thread nD τ).loc main_arg10) :=
  (s1_keep_arg10 (W2 m ρ c)).trans (W2_arg10 m ρ c)
theorem W3_v1 : W3 m ρ c (Proc.devRef .tc main_v1) = (shapeCast _ (extractStridedSlice S1x3200000 ![0, 0] (m ((c : Thread nD τ).loc main_arg1)) slices_S2x3200000_S1x3200000_0_0) shapeCasts_S1x3200000_S3200000) := (s1_keep_v1 (W2 m ρ c)).trans (W2_v1 m ρ c)
theorem W3_v3 : W3 m ρ c (Proc.devRef .tc main_v3) = (shapeCast _ (extractStridedSlice S1x3200000 ![1, 0] (m ((c : Thread nD τ).loc main_arg1)) slices_S2x3200000_S1x3200000_1_0) shapeCasts_S1x3200000_S3200000) := (s1_keep_v3 (W2 m ρ c)).trans (W2_v3 m ρ c)

/-! ## Boundary 4: after the second region -/

/-- The second region leaves the hidden features of the second layer. -/
theorem W4_v27 : W4 m ρ c (Proc.devRef .tc main_v27) = (hid2 (hid1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) := by
  refine (W4_arr m ρ c 5).trans ?_
  rw [Layer1.region_out (V3 m ρ) c]
  show lin2 (W3 m ρ c (Proc.devRef .tc main_v25)) (W3 m ρ c (Proc.devRef .tc main_v15)) (W3 m ρ c (Proc.devRef .tc main_arg5))
    (W3 m ρ c (Proc.devRef .tc main_arg6)) (W3 m ρ c (Proc.devRef .tc main_v26)) = _
  rw [W3_v25, W3_v15, W3_arg5, W3_arg6, W3_v26]
  rfl
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)
theorem W4_v1 : W4 m ρ c (Proc.devRef .tc main_v1) = (shapeCast _ (extractStridedSlice S1x3200000 ![0, 0] (m ((c : Thread nD τ).loc main_arg1)) slices_S2x3200000_S1x3200000_0_0) shapeCasts_S1x3200000_S3200000) := (W4_of_ne m ρ c main_v1 (by decide)).trans (W3_v1 m ρ c)
theorem W4_v3 : W4 m ρ c (Proc.devRef .tc main_v3) = (shapeCast _ (extractStridedSlice S1x3200000 ![1, 0] (m ((c : Thread nD τ).loc main_arg1)) slices_S2x3200000_S1x3200000_1_0) shapeCasts_S1x3200000_S3200000) := (W4_of_ne m ρ c main_v3 (by decide)).trans (W3_v3 m ρ c)

/-! ## Boundary 5: after the third stretch -/

theorem W5_v37 : W5 m ρ c (Proc.devRef .tc main_v37) = agg16 (hid2 (hid1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg1)) :=
  s2_v37 (W4 m ρ c) _ _ (W4_v27 m ρ c) (W4_v1 m ρ c) (W4_v3 m ρ c)
theorem W5_v27 : W5 m ρ c (Proc.devRef .tc main_v27) = (hid2 (hid1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) := (s2_keep_v27 (W4 m ρ c)).trans (W4_v27 m ρ c)
theorem W5_arg8 : W5 m ρ c (Proc.devRef .tc main_arg8) = m ((c : Thread nD τ).loc main_arg8) :=
  (s2_keep_arg8 (W4 m ρ c)).trans (W4_arg8 m ρ c)
theorem W5_arg9 : W5 m ρ c (Proc.devRef .tc main_arg9) = m ((c : Thread nD τ).loc main_arg9) :=
  (s2_keep_arg9 (W4 m ρ c)).trans (W4_arg9 m ρ c)
theorem W5_v38 : W5 m ρ c (Proc.devRef .tc main_v38) = row1 (m ((c : Thread nD τ).loc main_arg10)) :=
  (s2_v38 (W4 m ρ c)).trans (congrArg row1 (W4_arg10 m ρ c))

/-! ## Boundary 6: after the third region — the result -/

/-- The kernel program's result array, as its run leaves it, is the network of the eleven launch arguments. -/
theorem result_eq_net : W6 m ρ c (Proc.devRef .tc main_v39)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 5).trans ?_
  rw [Layer2.region_out (V5 m ρ) c]
  show relu1 (lin3 (W5 m ρ c (Proc.devRef .tc main_v37)) (W5 m ρ c (Proc.devRef .tc main_v27)) (W5 m ρ c (Proc.devRef .tc main_arg8))
    (W5 m ρ c (Proc.devRef .tc main_arg9)) (W5 m ρ c (Proc.devRef .tc main_v38))) = _
  rw [W5_v37, W5_v27, W5_arg8, W5_arg9, W5_v38]
  rfl

end Cert.GraphNet.Fold

end
-- ==== Proof.lean ====
/-
  Two programs compute a three-layer graph convolution over 100000 nodes and 3200000 edges (feature widths
  1 → 16 → 16 → 1; a positive part after the first and the third layer), and this file proves them equal over the
  extended reals, with the frames that go with that claim.

  One layer sends node features z to  (agg z · W_rel + b) + z · W_root,  agg z summing into every node the rows of z at
  the sources of the edges ending there.  The reference computes each layer with two whole matrix products on the
  host.  The kernel program gathers and sums on the host in the same way, and computes the affine map of each layer
  in a region of 20 blocks of 5000 rows: in a block,  (a · W_rel + z · W_root) + b,  the operands passed through a
  narrower float format (the identity over the reals) and each product accumulated from zero.  Block by block this
  is the reference's affine map with the bias added last instead of second; addition of extended reals is
  commutative and associative, so the two agree for every input, finite or not, and the precondition is not used.

  Spec.lean names the network's pieces; RefNet.lean shows the reference's composed result is the network;
  Layer0 / Layer1 / Layer2 show each region's output array is its layer's map of the region's input arrays;
  Fold.lean follows the buffer contents through the kernel program's three stretches and three regions; KRun.lean
  is the kernel program's run with its result named.  No rewrite was applied in printing the idealized kernel, so
  there is nothing to preserve beyond the program's own text.
-/
import proofs.«125403_j2929167695879_1_alg».proof.Defs
import proofs.«125403_j2929167695879_1_alg».proof.Proof.Gen.Kernel
import proofs.«125403_j2929167695879_1_alg».proof.Proof.Gen.Kernel.Frame
import proofs.«125403_j2929167695879_1_alg».proof.Proof.Gen.KernelIdeal
import proofs.«125403_j2929167695879_1_alg».proof.Proof.Gen.KernelIdeal.Frame
import proofs.«125403_j2929167695879_1_alg».proof.Proof.Gen.ReferenceIdeal
import proofs.«125403_j2929167695879_1_alg».proof.Proof.Gen.ReferenceIdeal.Run
import proofs.«125403_j2929167695879_1_alg».proof.Proof.Gen.Pre_finite_inputs
import proofs.«125403_j2929167695879_1_alg».proof.Proof.KRun
import proofs.«125403_j2929167695879_1_alg».proof.Proof.RefNet
import proofs.«125403_j2929167695879_1_alg».proof.Proof.Fold
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the eleven arguments both programs end with the network of those arguments in
    their result arrays. -/
theorem algebraic : Cert.algebraic_KernelIdeal_ReferenceIdeal := by
  intro m ρ m' ρ' _ hagree
  refine ⟨fun c => Cert.GraphNet.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.GraphNet.Fold.result_eq_net m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.GraphNet.ref_result_eq_net]
    obtain ⟨h0, h1, h2, h3, h4, h5, h6, h7, h8, h9, h10⟩ := hagree c
    rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
